-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg15 : FVec F S512x512 .f32) (main_arg16 : FVec F S512 .f32) (main_v63 : IVec S_ 1) (main_v67 : IVec S_ 1) : IVec S_ 1 :=
  let main_v68 : IVec S_ 1 := andi main_v63 main_v67
  let main_v69 : FVec F S512x512 .f32 := Host.absf main_arg15
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg12 : FVec F S512x512 .f32) (main_arg13 : FVec F S512 .f32) (main_arg14 : FVec F S512x512 .f32) (main_arg15 : FVec F S512x512 .f32) (main_arg16 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg14
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg15 main_arg16 main_v63 main_v67

def fn_part2 {F : FTy → Type} [FloatOps F] (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_v48 main_v49 main_v50

def fn_part1 {F : FTy → Type} [FloatOps F] (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S20000x512 .f32) (main_arg1 : IVec S2x160000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S20000x1024 : Shape := ⟨2, ![20000, 1024]⟩
abbrev S512x1024 : Shape := ⟨2, ![512, 1024]⟩
abbrev S1024x512 : Shape := ⟨2, ![1024, 512]⟩
abbrev S1x512 : Shape := ⟨2, ![1, 512]⟩
abbrev S2000x1024 : Shape := ⟨2, ![2000, 1024]⟩
abbrev S2000x512 : Shape := ⟨2, ![2000, 512]⟩

abbrev nBuf : Space → Nat
  | .hbm => 87
  | .vmem => 18
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S_, .f32⟩
  | .hbm, ⟨31, _⟩ => ⟨S20000x512, .f32⟩
  | .hbm, ⟨32, _⟩ => ⟨S160000x1, .i32⟩
  | .hbm, ⟨33, _⟩ => ⟨S20000x512, .f32⟩
  | .hbm, ⟨34, _⟩ => ⟨S20000x1024, .f32⟩
  | .hbm, ⟨35, _⟩ => ⟨S512x512, .f32⟩
  | .hbm, ⟨36, _⟩ => ⟨S512x1024, .f32⟩
  | .hbm, ⟨37, _⟩ => ⟨S1024x512, .f32⟩
  | .hbm, ⟨38, _⟩ => ⟨S512, .f32⟩
  | .hbm, ⟨39, _⟩ => ⟨S20000x1024, .bf16⟩
  | .hbm, ⟨40, _⟩ => ⟨S1024x512, .bf16⟩
  | .hbm, ⟨41, _⟩ => ⟨S1x512, .f32⟩
  | .hbm, ⟨42, _⟩ => ⟨S20000x512, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000x512, .f32⟩
  | .hbm, ⟨52, _⟩ => ⟨S_, .f32⟩
  | .hbm, ⟨53, _⟩ => ⟨S20000x512, .f32⟩
  | .hbm, ⟨54, _⟩ => ⟨S160000x1, .i32⟩
  | .hbm, ⟨55, _⟩ => ⟨S20000x512, .f32⟩
  | .hbm, ⟨56, _⟩ => ⟨S20000x1024, .f32⟩
  | .hbm, ⟨57, _⟩ => ⟨S512x512, .f32⟩
  | .hbm, ⟨58, _⟩ => ⟨S512x1024, .f32⟩
  | .hbm, ⟨59, _⟩ => ⟨S1024x512, .f32⟩
  | .hbm, ⟨60, _⟩ => ⟨S512, .f32⟩
  | .hbm, ⟨61, _⟩ => ⟨S20000x1024, .bf16⟩
  | .hbm, ⟨62, _⟩ => ⟨S1024x512, .bf16⟩
  | .hbm, ⟨63, _⟩ => ⟨S1x512, .f32⟩
  | .hbm, ⟨64, _⟩ => ⟨S20000x512, .f32⟩
  | .hbm, ⟨65, _⟩ => ⟨S_, .i32⟩
  | .hbm, ⟨66, _⟩ => ⟨S160000, .i32⟩
  | .hbm, ⟨67, _⟩ => ⟨S160000, .i1⟩
  | .hbm, ⟨68, _⟩ => ⟨S_, .i32⟩
  | .hbm, ⟨69, _⟩ => ⟨S160000, .i32⟩
  | .hbm, ⟨70, _⟩ => ⟨S160000, .i32⟩
  | .hbm, ⟨71, _⟩ => ⟨S160000, .i32⟩
  | .hbm, ⟨72, _⟩ => ⟨S160000x1, .i32⟩
  | .hbm, ⟨73, _⟩ => ⟨S160000x512, .f32⟩
  | .hbm, ⟨74, _⟩ => ⟨S_, .f32⟩
  | .hbm, ⟨75, _⟩ => ⟨S20000x512, .f32⟩
  | .hbm, ⟨76, _⟩ => ⟨S160000x1, .i32⟩
  | .hbm, ⟨77, _⟩ => ⟨S20000x512, .f32⟩
  | .hbm, ⟨78, _⟩ => ⟨S20000x1024, .f32⟩
  | .hbm, ⟨79, _⟩ => ⟨S512x512, .f32⟩
  | .hbm, ⟨80, _⟩ => ⟨S512x1024, .f32⟩
  | .hbm, ⟨81, _⟩ => ⟨S1024x512, .f32⟩
  | .hbm, ⟨82, _⟩ => ⟨S512, .f32⟩
  | .hbm, ⟨83, _⟩ => ⟨S20000x1024, .bf16⟩
  | .hbm, ⟨84, _⟩ => ⟨S1024x512, .bf16⟩
  | .hbm, ⟨85, _⟩ => ⟨S1x512, .f32⟩
  | .hbm, ⟨86, _⟩ => ⟨S20000x512, .f32⟩
  | .local _ .vmem, ⟨0, _⟩ => ⟨S2000x1024, .bf16⟩
  | .local _ .vmem, ⟨1, _⟩ => ⟨S2000x1024, .bf16⟩
  | .local _ .vmem, ⟨2, _⟩ => ⟨S1024x512, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x1024, .bf16⟩
  | .local _ .vmem, ⟨7, _⟩ => ⟨S2000x1024, .bf16⟩
  | .local _ .vmem, ⟨8, _⟩ => ⟨S1024x512, .bf16⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S2000x1024, .bf16⟩
  | .local _ .vmem, ⟨13, _⟩ => ⟨S2000x1024, .bf16⟩
  | .local _ .vmem, ⟨14, _⟩ => ⟨S1024x512, .bf16⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_4 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  concatenates_S20000x512_S20000x512_S20000x1024_d1 : Shape.Concatenates [S20000x512, S20000x512] S20000x1024 1
  concatenates_S512x512_S512x512_S512x1024_d1 : Shape.Concatenates [S512x512, S512x512] S512x1024 1
  transposes_S512x1024_S1024x512_1_0 : S512x1024.Transposes [1, 0] S1024x512
  bitsLt_bf16_f32 : FTy.bits .bf16 < FTy.bits .f32
  shapeCasts_S512_S1x512 : S512.ShapeCasts S1x512
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S2000x1024_S1024x512_S2000x512_1_0_0_1_n_n_wf : DotDims.WF S2000x1024 S1024x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S20000x1024.size a
  hwx0_0 : ∀ i : grid0.Coords, EltTy.bits .bf16 = 32 ∨ (Rect.block (s := S20000x1024) S2000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S20000x1024.size a
  hwx1_0 : ∀ i : grid1.Coords, EltTy.bits .bf16 = 32 ∨ (Rect.block (s := S20000x1024) S2000x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S20000x512.size a
  hwx1_3 : ∀ i : grid1.Coords, EltTy.bits .f32 = 32 ∨ (Rect.block (s := S20000x512) S2000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1024.size a ≤ S20000x1024.size a
  hwx2_0 : ∀ i : grid2.Coords, EltTy.bits .bf16 = 32 ∨ (Rect.block (s := S20000x1024) S2000x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x512.size a
  hwx2_1 : ∀ i : grid2.Coords, EltTy.bits .bf16 = 32 ∨ (Rect.block (s := S1024x512) S1024x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S20000x512.size a
  hwx2_3 : ∀ i : grid2.Coords, EltTy.bits .f32 = 32 ∨ (Rect.block (s := S20000x512) S2000x512.size (cc2_transform_3 i) (hinb2_3 i)).WholeWords (EltTy.packing .f32)

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf

abbrev win0_0 : Pipeline.Window sig grid0 :=
  Pipeline.Window.ofSpec (Memref.whole main_v19) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1024x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 108
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S_, .f32⟩
  | .hbm, ⟨31, _⟩ => ⟨S20000x512, .f32⟩
  | .hbm, ⟨32, _⟩ => ⟨S160000x1, .i32⟩
  | .hbm, ⟨33, _⟩ => ⟨S20000x512, .f32⟩
  | .hbm, ⟨34, _⟩ => ⟨S512x512, .f32⟩
  | .hbm, ⟨35, _⟩ => ⟨S20000x512, .f32⟩
  | .hbm, ⟨36, _⟩ => ⟨S1x512, .f32⟩
  | .hbm, ⟨37, _⟩ => ⟨S20000x512, .f32⟩
  | .hbm, ⟨38, _⟩ => ⟨S20000x512, .f32⟩
  | .hbm, ⟨39, _⟩ => ⟨S512x512, .f32⟩
  | .hbm, ⟨40, _⟩ => ⟨S20000x512, .f32⟩
  | .hbm, ⟨41, _⟩ => ⟨S20000x512, .f32⟩
  | .hbm, ⟨42, _⟩ => ⟨S512x512, .f32⟩
  | .hbm, ⟨43, _⟩ => ⟨S20000x512, .f32⟩
  | .hbm, ⟨44, _⟩ => ⟨S1x512, .f32⟩
  | .hbm, ⟨45, _⟩ => ⟨S20000x512, .f32⟩
  | .hbm, ⟨46, _⟩ => ⟨S20000x512, .f32⟩
  | .hbm, ⟨47, _⟩ => ⟨S20000x512, .f32⟩
  | .hbm, ⟨48, _⟩ => ⟨S_, .f32⟩
  | .hbm, ⟨49, _⟩ => ⟨S20000x512, .f32⟩
  | .hbm, ⟨50, _⟩ => ⟨S20000x512, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S_, .f32⟩
  | .hbm, ⟨61, _⟩ => ⟨S20000x512, .f32⟩
  | .hbm, ⟨62, _⟩ => ⟨S160000x1, .i32⟩
  | .hbm, ⟨63, _⟩ => ⟨S20000x512, .f32⟩
  | .hbm, ⟨64, _⟩ => ⟨S512x512, .f32⟩
  | .hbm, ⟨65, _⟩ => ⟨S20000x512, .f32⟩
  | .hbm, ⟨66, _⟩ => ⟨S1x512, .f32⟩
  | .hbm, ⟨67, _⟩ => ⟨S20000x512, .f32⟩
  | .hbm, ⟨68, _⟩ => ⟨S20000x512, .f32⟩
  | .hbm, ⟨69, _⟩ => ⟨S512x512, .f32⟩
  | .hbm, ⟨70, _⟩ => ⟨S20000x512, .f32⟩
  | .hbm, ⟨71, _⟩ => ⟨S20000x512, .f32⟩
  | .hbm, ⟨72, _⟩ => ⟨S512x512, .f32⟩
  | .hbm, ⟨73, _⟩ => ⟨S20000x512, .f32⟩
  | .hbm, ⟨74, _⟩ => ⟨S1x512, .f32⟩
  | .hbm, ⟨75, _⟩ => ⟨S20000x512, .f32⟩
  | .hbm, ⟨76, _⟩ => ⟨S20000x512, .f32⟩
  | .hbm, ⟨77, _⟩ => ⟨S20000x512, .f32⟩
  | .hbm, ⟨78, _⟩ => ⟨S_, .f32⟩
  | .hbm, ⟨79, _⟩ => ⟨S20000x512, .f32⟩
  | .hbm, ⟨80, _⟩ => ⟨S20000x512, .f32⟩
  | .hbm, ⟨81, _⟩ => ⟨S_, .i32⟩
  | .hbm, ⟨82, _⟩ => ⟨S160000, .i32⟩
  | .hbm, ⟨83, _⟩ => ⟨S160000, .i1⟩
  | .hbm, ⟨84, _⟩ => ⟨S_, .i32⟩
  | .hbm, ⟨85, _⟩ => ⟨S160000, .i32⟩
  | .hbm, ⟨86, _⟩ => ⟨S160000, .i32⟩
  | .hbm, ⟨87, _⟩ => ⟨S160000, .i32⟩
  | .hbm, ⟨88, _⟩ => ⟨S160000x1, .i32⟩
  | .hbm, ⟨89, _⟩ => ⟨S160000x512, .f32⟩
  | .hbm, ⟨90, _⟩ => ⟨S_, .f32⟩
  | .hbm, ⟨91, _⟩ => ⟨S20000x512, .f32⟩
  | .hbm, ⟨92, _⟩ => ⟨S160000x1, .i32⟩
  | .hbm, ⟨93, _⟩ => ⟨S20000x512, .f32⟩
  | .hbm, ⟨94, _⟩ => ⟨S512x512, .f32⟩
  | .hbm, ⟨95, _⟩ => ⟨S20000x512, .f32⟩
  | .hbm, ⟨96, _⟩ => ⟨S1x512, .f32⟩
  | .hbm, ⟨97, _⟩ => ⟨S20000x512, .f32⟩
  | .hbm, ⟨98, _⟩ => ⟨S20000x512, .f32⟩
  | .hbm, ⟨99, _⟩ => ⟨S512x512, .f32⟩
  | .hbm, ⟨100, _⟩ => ⟨S20000x512, .f32⟩
  | .hbm, ⟨101, _⟩ => ⟨S20000x512, .f32⟩
  | .hbm, ⟨102, _⟩ => ⟨S512x512, .f32⟩
  | .hbm, ⟨103, _⟩ => ⟨S20000x512, .f32⟩
  | .hbm, ⟨104, _⟩ => ⟨S1x512, .f32⟩
  | .hbm, ⟨105, _⟩ => ⟨S20000x512, .f32⟩
  | .hbm, ⟨106, _⟩ => ⟨S20000x512, .f32⟩
  | .hbm, ⟨107, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_4 : Ref sig .tc := ⟨.hbm, 81, rfl⟩
abbrev main_v54 : Ref sig .tc := ⟨.hbm, 82, rfl⟩
abbrev main_v55 : Ref sig .tc := ⟨.hbm, 83, rfl⟩
abbrev main_c_5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf

class Facts : Prop extends Facts₀ where

variable [Facts]
-- ==== Proof.LayerLaw.lean ====
/-
  The arithmetic that joins the two forms of one graph-convolution layer, on the extended reals.

  One output entry of the fused layer is a single contraction over the 2·d features of the row "aggregated
  neighbours, then the node itself" against the row "w_rel, then w_root + w_lin", plus b_rel + b_lin. The unfused
  layer adds three contractions over d features and the two biases one by one. Regrouping a finite sum and moving the
  biases only uses that addition is commutative and associative, which holds on the extended reals. The one step that
  does not is x · (a + b) = x · a + x · b: it fails at infinities, and holds as soon as x, a and b are real numbers.
  So the layer law is stated for a node row and two weight rows whose entries are all real, and beside it stands the
  bookkeeping that the entries STAY real through sums, products, maxima against 0 and re-indexings, layer after layer.
-/
import Mathlib.Data.EReal.Operations
import Mathlib.Algebra.BigOperators.Fin

noncomputable section

namespace Cert.LayerLaw

/-- Every entry of the family is a real number (neither infinity). -/
def AllReal {ι : Type*} (v : ι → EReal) : Prop := ∀ i, ∃ r : ℝ, v i = (r : EReal)

theorem AllReal.comp {ι κ : Type*} {v : ι → EReal} (h : AllReal v) (f : κ → ι) : AllReal fun k => v (f k) :=
  fun k => h (f k)

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem real_max_zero {a : EReal} (ha : ∃ r : ℝ, a = r) : ∃ r : ℝ, max a 0 = r := by
  obtain ⟨r, rfl⟩ := ha
  refine ⟨max r 0, ?_⟩
  rcases le_total r 0 with h | h
  · rw [max_eq_right h, max_eq_right (by exact_mod_cast h)]; rfl
  · rw [max_eq_left h, max_eq_left (by exact_mod_cast h)]

theorem real_zero : ∃ r : ℝ, (0 : EReal) = r := ⟨0, rfl⟩

/-- A finite sum of real numbers is a real number. -/
theorem real_sum {κ : Type*} (s : Finset κ) (f : κ → EReal) (hf : ∀ k ∈ s, ∃ r : ℝ, f k = r) :
    ∃ r : ℝ, ∑ k ∈ s, f k = r := by
  classical
  induction s using Finset.induction_on with
  | empty => exact ⟨0, by simp⟩
  | insert a s ha ih =>
    rw [Finset.sum_insert ha]
    exact real_add (hf a (Finset.mem_insert_self a s)) (ih fun k hk => hf k (Finset.mem_insert_of_mem hk))

/-- A real number distributes over a sum of two real numbers. -/
theorem mul_add_of_real {x a b : EReal} (hx : ∃ r : ℝ, x = r) (ha : ∃ r : ℝ, a = r) (hb : ∃ r : ℝ, b = r) :
    x * (a + b) = x * a + x * b := by
  obtain ⟨r, rfl⟩ := hx; obtain ⟨s, rfl⟩ := ha; obtain ⟨t, rfl⟩ := hb
  rw [← EReal.coe_add, ← EReal.coe_mul, ← EReal.coe_mul, ← EReal.coe_mul, ← EReal.coe_add, mul_add]

/-- THE LAYER LAW at one output entry. With the node's row `x` and the two weight rows `wroot`, `wlin` real,
    the fused form — the neighbours' contraction with `wrel`, the node's with `wroot + wlin`, and the two biases
    added first — is the unfused form, which adds the three contractions and the biases one by one. -/
theorem fused_eq_unfused {d : ℕ} (a x wrel wroot wlin : Fin d → EReal) (brel blin : EReal)
    (hx : AllReal x) (hroot : AllReal wroot) (hlin : AllReal wlin) :
    ((∑ k, a k * wrel k) + ∑ k, x k * (wroot k + wlin k)) + (brel + blin)
      = (((∑ k, a k * wrel k) + brel) + ∑ k, x k * wroot k) + ((∑ k, x k * wlin k) + blin) := by
  have h : ∀ k, x k * (wroot k + wlin k) = x k * wroot k + x k * wlin k :=
    fun k => mul_add_of_real (hx k) (hroot k) (hlin k)
  simp only [h, Finset.sum_add_distrib]
  abel

/-- The same entry is a real number when the neighbours' row, `wrel` and the biases are real too. -/
theorem unfused_real {d : ℕ} (a x wrel wroot wlin : Fin d → EReal) (brel blin : EReal)
    (ha : AllReal a) (hx : AllReal x) (hrel : AllReal wrel) (hroot : AllReal wroot) (hlin : AllReal wlin)
    (hbrel : ∃ r : ℝ, brel = r) (hblin : ∃ r : ℝ, blin = r) :
    ∃ r : ℝ, (((∑ k, a k * wrel k) + brel) + ∑ k, x k * wroot k) + ((∑ k, x k * wlin k) + blin) = r :=
  real_add
    (real_add (real_add (real_sum _ _ fun k _ => real_mul (ha k) (hrel k)) hbrel)
      (real_sum _ _ fun k _ => real_mul (hx k) (hroot k)))
    (real_add (real_sum _ _ fun k _ => real_mul (hx k) (hlin k)) hblin)

end Cert.LayerLaw

end
-- ==== Proof.Spec.lean ====
/-
  The two programs' layer, written once as functions of arrays of extended reals.

  A layer takes the node features X : [20000, 512], the edge list (a row of source numbers and a row of target
  numbers, 160000 each), three weight matrices [512, 512] (indexed output feature, input feature) and two biases.
  Both programs first AGGREGATE: row r of `agg` is the sum of the rows X[src e] over the edges e whose target is r (a
  row gather at the source numbers, negative ones counted from the end, then a row scatter-add into zeros at the
  target numbers). The kernel's program then lays "agg, X" side by side into [20000, 1024] (`feat`), lays
  "w_rel, w_root + w_lin" side by side and transposes them into [1024, 512] (`wcat`), adds the two biases (`brow`),
  and one kernel region computes, entry by entry, the contraction of a `feat` row with a `wcat` column plus the bias,
  followed in the first two layers by a maximum against zero (`mm`, `fusedLayer`). The reference contracts agg with
  w_rel, X with w_root and X with w_lin separately and adds the biases one at a time (`unfused`, `plainLayer`).
  `fusedNet` and `plainNet` stack three layers, the first two followed by the maximum against zero.
-/
import proofs.«110117_j60559038874107_1_alg».proof.Proof.Gen.KernelIdeal
import proofs.«110117_j60559038874107_1_alg».proof.Proof.LayerLaw
import Idealize.ShloMosaic.PureOps.Ideal
import Idealize.ShloMosaic.Lib.ValueIdx

noncomputable section

namespace Cert.Spec

open Idealize.ShloMosaic Idealize.ShloMosaic.ValueIdx Cert.KernelIdeal Cert.KernelIdeal.Gen

/-! ## The edge list and the aggregation, in the host's own operations -/

/-- The source numbers: row 0 of the edge list. -/
def srcRow (e : (⟨S2x160000, .i32⟩ : BufTy).Contents (Elt Ideal)) : (⟨S160000, .i32⟩ : BufTy).Contents (Elt Ideal) :=
  shapeCast _ (extractStridedSlice S1x160000 ![0, 0] e slices_S2x160000_S1x160000_0_0) shapeCasts_S1x160000_S160000

/-- The target numbers: row 1 of the edge list. -/
def dstRow (e : (⟨S2x160000, .i32⟩ : BufTy).Contents (Elt Ideal)) : (⟨S160000, .i32⟩ : BufTy).Contents (Elt Ideal) :=
  shapeCast _ (extractStridedSlice S1x160000 ![1, 0] e slices_S2x160000_S1x160000_1_0) shapeCasts_S1x160000_S160000

/-- The source numbers as a column, a negative number counted from the end of the 20000 rows. -/
def srcCol (s : (⟨S160000, .i32⟩ : BufTy).Contents (Elt Ideal)) : (⟨S160000x1, .i32⟩ : BufTy).Contents (Elt Ideal) :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 20000#32))) s)

/-- The target numbers as a column. -/
def dstCol (t : (⟨S160000, .i32⟩ : BufTy).Contents (Elt Ideal)) : (⟨S160000x1, .i32⟩ : BufTy).Contents (Elt Ideal) :=
  broadcastInDim S160000x1 ![0] bcast_S160000_S160000x1_0 t

/-- The aggregated neighbours: the rows of `x` gathered at the source numbers, scatter-added into zeros at the target
    numbers. -/
def agg (x : (⟨S20000x512, .f32⟩ : BufTy).Contents (Elt Ideal)) (s t : (⟨S160000, .i32⟩ : BufTy).Contents (Elt Ideal)) :
    (⟨S20000x512, .f32⟩ : BufTy).Contents (Elt Ideal) :=
  Host.scatterAdd (F := Ideal) scatter_S20000x512_S160000x1_S160000x512_1_0_0_1
    (broadcastInDim S20000x512 ![] bcast_S_S20000x512 (constant (F := Ideal) S_ .f32 0x00000000#32)) (dstCol t)
    (Host.gather gather_S20000x512_S160000x1_S160000x512_1_0_n_n_0_1_1512 x (srcCol s))

/-! ## What the kernel's program prepares for one region -/

/-- "agg, x" side by side (the change of format is the identity on extended reals). -/
def feat (x : (⟨S20000x512, .f32⟩ : BufTy).Contents (Elt Ideal)) (s t : (⟨S160000, .i32⟩ : BufTy).Contents (Elt Ideal)) :
    (⟨S20000x1024, .bf16⟩ : BufTy).Contents (Elt Ideal) :=
  truncf (F := Ideal) .bf16 (concatenate S20000x1024 1 [⟨S20000x512, agg x s t⟩, ⟨S20000x512, x⟩] concatenates_S20000x512_S20000x512_S20000x1024_d1)
    bitsLt_bf16_f32

/-- "w_rel, w_root + w_lin" side by side, transposed. -/
def wcat (wrel wroot wlin : (⟨S512x512, .f32⟩ : BufTy).Contents (Elt Ideal)) : (⟨S1024x512, .bf16⟩ : BufTy).Contents (Elt Ideal) :=
  truncf (F := Ideal) .bf16 (transpose S1024x512 [1, 0]
      (concatenate S512x1024 1 [⟨S512x512, wrel⟩, ⟨S512x512, addf (F := Ideal) (φ := .f32) wroot wlin⟩] concatenates_S512x512_S512x512_S512x1024_d1)
      transposes_S512x1024_S1024x512_1_0)
    bitsLt_bf16_f32

/-- The two biases added, as a one-row matrix. -/
def brow (brel blin : (⟨S512, .f32⟩ : BufTy).Contents (Elt Ideal)) : (⟨S1x512, .f32⟩ : BufTy).Contents (Elt Ideal) :=
  shapeCast _ (addf (F := Ideal) (φ := .f32) brel blin) shapeCasts_S512_S1x512

/-! ## One region, and the two forms of a layer -/

/-- The zero the maximum is taken against. -/
def zeroWord : EReal := Ideal.ofBits .f32 0x00000000#32

theorem zeroWord_eq : zeroWord = 0 := by unfold zeroWord; simp [Ideal.ofBits, Ideal.ieee]

/-- After the first two layers the maximum against zero; after the last nothing. -/
def post (relu : Bool) (v : EReal) : EReal := if relu then max v zeroWord else v

/-- What one kernel region leaves in its result array: entry (p, q) is the contraction of row p of `f` with column q of
    `w`, plus the bias at q, then `post`. -/
def mm (relu : Bool) (f : (⟨S20000x1024, .bf16⟩ : BufTy).Contents (Elt Ideal)) (w : (⟨S1024x512, .bf16⟩ : BufTy).Contents (Elt Ideal))
    (b : (⟨S1x512, .f32⟩ : BufTy).Contents (Elt Ideal)) : (⟨S20000x512, .f32⟩ : BufTy).Contents (Elt Ideal) := fun i =>
  post relu ((∑ k : Fin 1024, f (ix2 (⟨(i 0).val, (i 0).isLt⟩ : Fin 20000) k) * w (ix2 k (⟨(i 1).val, (i 1).isLt⟩ : Fin 512)))
    + b (ix2 (0 : Fin 1) (⟨(i 1).val, (i 1).isLt⟩ : Fin 512)))

theorem mm_apply (relu : Bool) (f : (⟨S20000x1024, .bf16⟩ : BufTy).Contents (Elt Ideal)) (w : (⟨S1024x512, .bf16⟩ : BufTy).Contents (Elt Ideal))
    (b : (⟨S1x512, .f32⟩ : BufTy).Contents (Elt Ideal)) (p : Fin 20000) (q : Fin 512) :
    mm relu f w b (ix2 p q) = post relu ((∑ k : Fin 1024, f (ix2 p k) * w (ix2 k q)) + b (ix2 (0 : Fin 1) q)) := rfl

/-- The unfused entry (p, q): agg·w_rel + b_rel, plus x·w_root, plus (x·w_lin + b_lin). -/
def unfused (a x : (⟨S20000x512, .f32⟩ : BufTy).Contents (Elt Ideal)) (wrel wroot wlin : (⟨S512x512, .f32⟩ : BufTy).Contents (Elt Ideal))
    (brel blin : (⟨S512, .f32⟩ : BufTy).Contents (Elt Ideal)) (p : Fin 20000) (q : Fin 512) : EReal :=
  (((∑ k : Fin 512, a (ix2 p k) * wrel (ix2 q k)) + brel (ix1 q)) + ∑ k : Fin 512, x (ix2 p k) * wroot (ix2 q k))
    + ((∑ k : Fin 512, x (ix2 p k) * wlin (ix2 q k)) + blin (ix1 q))

/-- One layer as the kernel's program computes it. -/
def fusedLayer (relu : Bool) (x : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal))
    (wroot wlin : (⟨S512x512, .f32⟩ : BufTy).Contents (Elt Ideal)) (blin : (⟨S512, .f32⟩ : BufTy).Contents (Elt Ideal)) :
    (⟨S20000x512, .f32⟩ : BufTy).Contents (Elt Ideal) :=
  mm relu (feat x s t) (wcat wrel wroot wlin) (brow brel blin)

/-- One layer as the reference computes it. -/
def plainLayer (relu : Bool) (x : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal))
    (wroot wlin : (⟨S512x512, .f32⟩ : BufTy).Contents (Elt Ideal)) (blin : (⟨S512, .f32⟩ : BufTy).Contents (Elt Ideal)) :
    (⟨S20000x512, .f32⟩ : BufTy).Contents (Elt Ideal) := fun i =>
  post relu (unfused (agg x s t) x wrel wroot wlin brel blin (⟨(i 0).val, (i 0).isLt⟩ : Fin 20000) (⟨(i 1).val, (i 1).isLt⟩ : Fin 512))

theorem plainLayer_apply (relu : Bool) (x : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal))
    (wroot wlin : (⟨S512x512, .f32⟩ : BufTy).Contents (Elt Ideal)) (blin : (⟨S512, .f32⟩ : BufTy).Contents (Elt Ideal)) (p : Fin 20000) (q : Fin 512) :
    plainLayer relu x s t wrel brel wroot wlin blin (ix2 p q) = post relu (unfused (agg x s t) x wrel wroot wlin brel blin p q) := rfl

/-! ## Three layers -/

section Net
variable (x : (⟨S20000x512, .f32⟩ : BufTy).Contents (Elt Ideal)) (e : (⟨S2x160000, .i32⟩ : BufTy).Contents (Elt Ideal))
  (wrel1 : (⟨S512x512, .f32⟩ : BufTy).Contents (Elt Ideal)) (brel1 : (⟨S512, .f32⟩ : BufTy).Contents (Elt Ideal))
  (wroot1 wlin1 : (⟨S512x512, .f32⟩ : BufTy).Contents (Elt Ideal)) (blin1 : (⟨S512, .f32⟩ : BufTy).Contents (Elt Ideal))
  (wrel2 : (⟨S512x512, .f32⟩ : BufTy).Contents (Elt Ideal)) (brel2 : (⟨S512, .f32⟩ : BufTy).Contents (Elt Ideal))
  (wroot2 wlin2 : (⟨S512x512, .f32⟩ : BufTy).Contents (Elt Ideal)) (blin2 : (⟨S512, .f32⟩ : BufTy).Contents (Elt Ideal))
  (wrel3 : (⟨S512x512, .f32⟩ : BufTy).Contents (Elt Ideal)) (brel3 : (⟨S512, .f32⟩ : BufTy).Contents (Elt Ideal))
  (wroot3 wlin3 : (⟨S512x512, .f32⟩ : BufTy).Contents (Elt Ideal)) (blin3 : (⟨S512, .f32⟩ : BufTy).Contents (Elt Ideal))

/-- The kernel's program: three fused layers, arguments in @main's order. -/
def fusedNet : (⟨S20000x512, .f32⟩ : BufTy).Contents (Elt Ideal) :=
  fusedLayer false
    (fusedLayer true (fusedLayer true x (srcRow e) (dstRow e) wrel1 brel1 wroot1 wlin1 blin1) (srcRow e) (dstRow e) wrel2 brel2 wroot2 wlin2 blin2)
    (srcRow e) (dstRow e) wrel3 brel3 wroot3 wlin3 blin3

/-- The reference: three plain layers, arguments in @main's order. -/
def plainNet : (⟨S20000x512, .f32⟩ : BufTy).Contents (Elt Ideal) :=
  plainLayer false
    (plainLayer true (plainLayer true x (srcRow e) (dstRow e) wrel1 brel1 wroot1 wlin1 blin1) (srcRow e) (dstRow e) wrel2 brel2 wroot2 wlin2 blin2)
    (srcRow e) (dstRow e) wrel3 brel3 wroot3 wlin3 blin3
end Net

end Cert.Spec

end
-- ==== Proof.LibConcatPair.lean ====
/-
  A general lemma. A concatenation of two pieces depends on the pieces' contents only through the pieces themselves:
  equal first pieces and equal second pieces give equal concatenations. The side condition of a concatenation speaks of
  the pieces' shapes alone, so it is one and the same proof on both sides. Stated as a congruence, it lets a simplifier
  rewrite inside a piece, which it cannot do unaided because the side condition's type mentions the list of pieces.
  It holds for all shapes, any axis and any element type.
-/
import Idealize.ShloMosaic.PureOps.ShapeOps

namespace Idealize.ShloMosaic.ConcatPair

open Idealize.ShloMosaic

/-- Two-piece concatenations with equal pieces are equal. -/
theorem concatenate_pair_congr {α : Type} (t : Shape) (ax : Fin t.rank) (s1 s2 : Shape)
    {a a' : s1.Idx → α} {b b' : s2.Idx → α} (h : Shape.Concatenates [s1, s2] t ax) (ha : a = a') (hb : b = b') :
    concatenate t ax [⟨s1, a⟩, ⟨s2, b⟩] h = concatenate t ax [⟨s1, a'⟩, ⟨s2, b'⟩] h := by
  subst ha; subst hb; rfl

end Idealize.ShloMosaic.ConcatPair
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Region0.lean ====
/-
  What a kernel region leaves in its result array; region 0 in full.

  A region walks a grid of ten points. At point t it sees a block of 2000 consecutive rows of the [20000, 1024]
  features (rows 2000 t ... 2000 t + 1999), the whole [1024, 512] weight and the whole one-row bias, and it writes a
  block of 2000 rows of the [20000, 512] result, the rows with the same numbers. Entry (p, q) of the block it writes
  is the contraction of row p of the features' block with column q of the weight, plus the bias at q, and in the
  first two regions the maximum of that with zero. Since row p of the block is row 2000 t + p of the array, this is
  entry (2000 t + p, q) of the one array `Cert.Spec.mm` of the three arrays read; the ten blocks tile the result,
  so after the last point the result array is `mm`.

  First the body's value at an entry, for any three blocks and for each of the three bodies; then, for region 0, where
  each block sits in its array, the block written at a point, the tiling, and the result array.
-/
import proofs.«110117_j60559038874107_1_alg».proof.Proof.Gen.KernelIdeal.Frame
import proofs.«110117_j60559038874107_1_alg».proof.Proof.Spec
import proofs.«110117_j60559038874107_1_alg».proof.Proof.LibMatmulPlain
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-! ## The body's value at an entry -/

/-- The contraction record of the three bodies is the plain one: the left operand's second axis against the right
    operand's first, no batch axes. -/
theorem dot_eq_plain : dot_S2000x1024_S1024x512_S2000x512_1_0_0_1_n_n = DotDims.plain 2000 1024 512 := rfl

/-- Regions 0 and 1: entry (p, q) of the stored value is the contraction of row p with column q, plus the bias at q,
    then the maximum with the zero word. -/
theorem pay_relu (x0 : Vec Ideal S2000x1024 .bf16) (x1 : Vec Ideal S1024x512 .bf16) (x2 : Vec Ideal S1x512 .f32) (p : Fin 2000) (q : Fin 512) :
    k0_pay1 (F := Ideal) x0 x1 x2 (ix2 p q)
      = max ((∑ k : Fin 1024, x0 (ix2 p k) * x1 (ix2 k q)) + x2 (ix2 (0 : Fin 1) q)) (Ideal.ofBits .f32 0x00000000#32) := by
  unfold k0_pay1
  rw [shapeCast_self, shapeCast_self, shapeCast_self, dot_eq_plain]
  rw [maximumf_apply, addf_apply, broadcast_apply]
  rw [Idealize.ShloMosaic.MatmulPlain.matmul_zero_apply, broadcastTo_1b_ab_apply]
  rfl

/-- Region 1's body is region 0's. -/
theorem k1_pay1_eq : k1_pay1 (F := Ideal) = k0_pay1 (F := Ideal) := rfl

/-- Region 2: the same without the maximum. -/
theorem pay_linear (x0 : Vec Ideal S2000x1024 .bf16) (x1 : Vec Ideal S1024x512 .bf16) (x2 : Vec Ideal S1x512 .f32) (p : Fin 2000) (q : Fin 512) :
    k2_pay1 (F := Ideal) x0 x1 x2 (ix2 p q)
      = (∑ k : Fin 1024, x0 (ix2 p k) * x1 (ix2 k q)) + x2 (ix2 (0 : Fin 1) q) := by
  unfold k2_pay1
  rw [shapeCast_self, shapeCast_self, shapeCast_self, dot_eq_plain]
  rw [addf_apply]
  rw [Idealize.ShloMosaic.MatmulPlain.matmul_zero_apply, broadcastTo_1b_ab_apply]

/-- If row p of a features' block is row i of the features, and the weight's and the bias's blocks are the weight and the
    bias, the contraction-plus-bias at (p, q) of the blocks is the one at (i, q) of the arrays. -/
theorem entry_congr (x0 : Vec Ideal S2000x1024 .bf16) (x1 : Vec Ideal S1024x512 .bf16) (x2 : Vec Ideal S1x512 .f32)
    (f : S20000x1024.Idx → Elt Ideal .bf16) (w : S1024x512.Idx → Elt Ideal .bf16) (b : S1x512.Idx → Elt Ideal .f32)
    (p : Fin 2000) (q : Fin 512) (i : Fin 20000)
    (h0 : ∀ k : Fin 1024, x0 (ix2 p k) = f (ix2 i k)) (h1 : ∀ k : Fin 1024, x1 (ix2 k q) = w (ix2 k q))
    (h2 : x2 (ix2 (0 : Fin 1) q) = b (ix2 (0 : Fin 1) q)) :
    (∑ k : Fin 1024, x0 (ix2 p k) * x1 (ix2 k q)) + x2 (ix2 (0 : Fin 1) q)
      = (∑ k : Fin 1024, f (ix2 i k) * w (ix2 k q)) + b (ix2 (0 : Fin 1) q) := by
  rw [h2, Finset.sum_congr rfl fun k _ => by rw [h0 k, h1 k]]

/-- Under those hypotheses the body of regions 0 and 1 at (p, q) is `mm true` of the arrays at (i, q), -/
theorem relu_entry (x0 : Vec Ideal S2000x1024 .bf16) (x1 : Vec Ideal S1024x512 .bf16) (x2 : Vec Ideal S1x512 .f32)
    (f : S20000x1024.Idx → Elt Ideal .bf16) (w : S1024x512.Idx → Elt Ideal .bf16) (b : S1x512.Idx → Elt Ideal .f32)
    (p : Fin 2000) (q : Fin 512) (i : Fin 20000)
    (h0 : ∀ k : Fin 1024, x0 (ix2 p k) = f (ix2 i k)) (h1 : ∀ k : Fin 1024, x1 (ix2 k q) = w (ix2 k q))
    (h2 : x2 (ix2 (0 : Fin 1) q) = b (ix2 (0 : Fin 1) q)) :
    k0_pay1 (F := Ideal) x0 x1 x2 (ix2 p q) = Cert.Spec.mm true f w b (ix2 i q) := by
  rw [pay_relu, Cert.Spec.mm_apply, entry_congr x0 x1 x2 f w b p q i h0 h1 h2]
  rfl

/-- so is region 1's body, which is the same term, -/
theorem relu_entry1 (x0 : Vec Ideal S2000x1024 .bf16) (x1 : Vec Ideal S1024x512 .bf16) (x2 : Vec Ideal S1x512 .f32)
    (f : S20000x1024.Idx → Elt Ideal .bf16) (w : S1024x512.Idx → Elt Ideal .bf16) (b : S1x512.Idx → Elt Ideal .f32)
    (p : Fin 2000) (q : Fin 512) (i : Fin 20000)
    (h0 : ∀ k : Fin 1024, x0 (ix2 p k) = f (ix2 i k)) (h1 : ∀ k : Fin 1024, x1 (ix2 k q) = w (ix2 k q))
    (h2 : x2 (ix2 (0 : Fin 1) q) = b (ix2 (0 : Fin 1) q)) :
    k1_pay1 (F := Ideal) x0 x1 x2 (ix2 p q) = Cert.Spec.mm true f w b (ix2 i q) := by
  rw [k1_pay1_eq]
  exact relu_entry x0 x1 x2 f w b p q i h0 h1 h2

/-- and the body of region 2 is `mm false`. -/
theorem linear_entry (x0 : Vec Ideal S2000x1024 .bf16) (x1 : Vec Ideal S1024x512 .bf16) (x2 : Vec Ideal S1x512 .f32)
    (f : S20000x1024.Idx → Elt Ideal .bf16) (w : S1024x512.Idx → Elt Ideal .bf16) (b : S1x512.Idx → Elt Ideal .f32)
    (p : Fin 2000) (q : Fin 512) (i : Fin 20000)
    (h0 : ∀ k : Fin 1024, x0 (ix2 p k) = f (ix2 i k)) (h1 : ∀ k : Fin 1024, x1 (ix2 k q) = w (ix2 k q))
    (h2 : x2 (ix2 (0 : Fin 1) q) = b (ix2 (0 : Fin 1) q)) :
    k2_pay1 (F := Ideal) x0 x1 x2 (ix2 p q) = Cert.Spec.mm false f w b (ix2 i q) := by
  rw [pay_linear, Cert.Spec.mm_apply, entry_congr x0 x1 x2 f w b p q i h0 h1 h2]
  rfl

/-- The bodies load and store through whole-block rectangles at zero offsets. -/
theorem zero_offsets : (![0, 0] : Fin 2 → Nat) = fun _ => 0 := funext fun a => by fin_cases a <;> rfl

/-! ## Region 0 -/

section Region0
variable (V : (c : Dev nD) → (b : Ref sig .tc) → Buf (Elt Ideal) ((c : Thread nD τ).loc b))

/-- The block indices of region 0's four windows at grid point t: the features and the result move down by one block of
    2000 rows per point; the weight and the bias are one block each, at the origin. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block at point t is row 2000 t + p of the features. -/
theorem feat_block0 (c : Dev nD) (t : Fin cfg0.N) (p : Fin 2000) (k : Fin 1024) (i : Fin 20000) (hi : i.val = 2000 * t.val + p.val) :
    (Gen.iblk0 V c 0 t : Vec Ideal S2000x1024 .bf16) (ix2 p k) = (V c main_v19 : S20000x1024.Idx → Elt Ideal .bf16) (ix2 i k) := by
  obtain ⟨e0, e1, -⟩ := index_maps0 t
  unfold Gen.iblk0
  rw [View.read_apply]
  show V c main_v19 _ = V c main_v19 _
  congr 1
  funext a
  apply Fin.ext
  match a with
  | ⟨0, _⟩ => show win0_0.index t (0 : Fin 2) * 2000 + 1 * p.val = i.val; rw [e0, hi]; omega
  | ⟨1, _⟩ => show win0_0.index t (1 : Fin 2) * 1024 + 1 * k.val = k.val; rw [e1]; omega

/-- The weight's block at any point is the weight. -/
theorem weight_block0 (c : Dev nD) (t : Fin cfg0.N) (k : Fin 1024) (q : Fin 512) :
    (Gen.iblk0 V c 1 t : Vec Ideal S1024x512 .bf16) (ix2 k q) = (V c main_v20 : S1024x512.Idx → Elt Ideal .bf16) (ix2 k q) := by
  obtain ⟨-, -, e0, e1, -⟩ := index_maps0 t
  unfold Gen.iblk0
  rw [View.read_apply]
  show V c main_v20 _ = V c main_v20 _
  congr 1
  funext a
  apply Fin.ext
  match a with
  | ⟨0, _⟩ => show win0_1.index t (0 : Fin 2) * 1024 + 1 * k.val = k.val; rw [e0]; omega
  | ⟨1, _⟩ => show win0_1.index t (1 : Fin 2) * 512 + 1 * q.val = q.val; rw [e1]; omega

/-- The bias's block at any point is the bias. -/
theorem bias_block0 (c : Dev nD) (t : Fin cfg0.N) (z : Fin 1) (q : Fin 512) :
    (Gen.iblk0 V c 2 t : Vec Ideal S1x512 .f32) (ix2 z q) = (V c main_v21 : S1x512.Idx → Elt Ideal .f32) (ix2 z q) := by
  obtain ⟨-, -, -, -, e0, e1, -⟩ := index_maps0 t
  unfold Gen.iblk0
  rw [View.read_apply]
  show V c main_v21 _ = V c main_v21 _
  congr 1
  funext a
  apply Fin.ext
  match a with
  | ⟨0, _⟩ => show win0_2.index t (0 : Fin 2) * 1 + 1 * z.val = z.val; rw [e0]; omega
  | ⟨1, _⟩ => show win0_2.index t (1 : Fin 2) * 512 + 1 * q.val = q.val; rw [e1]; omega

/-- Entry (p, q) of the result's block at point t sits at (2000 t + p, q) in the result. -/
theorem out_index0 (t : Fin cfg0.N) (p : Fin 2000) (q : Fin 512) (i : Fin 20000) (hi : i.val = 2000 * t.val + p.val) :
    ((cfg0.win 3).blk t).view.emb (ix2 p q) = (ix2 i q : S20000x512.Idx) := by
  obtain ⟨-, -, -, -, -, -, e0, e1⟩ := index_maps0 t
  funext a
  apply Fin.ext
  match a with
  | ⟨0, _⟩ => show win0_3.index t (0 : Fin 2) * 2000 + 1 * p.val = i.val; rw [e0, hi]; omega
  | ⟨1, _⟩ => show win0_3.index t (1 : Fin 2) * 512 + 1 * q.val = q.val; rw [e1]; omega

/-- What point t writes back is its block of the one array `mm`: entry (p, q) of the body's result depends on row p of the
    features' block, that is row 2000 t + p of the features, on column q of the weight and on the bias at q. -/
theorem flushed0 (c : Dev nD) (t : Fin cfg0.N) :
    (Gen.dat0 (F := Ideal) V c).flushed 3 t
      = ((cfg0.win 3).blk t).view.read (Elt Ideal) (Cert.Spec.mm true (V c main_v19) (V c main_v20) (V c main_v21)) := by
  show (cfg0.win 3).cut (grid0.coords t) ((Gen.dat0 V c).after 3 t) = _
  rw [Gen.after0_3]
  unfold Gen.out0_3
  rw [View.canon_unit_zero zero_offsets]
  simp only [View.ld_unit_zero (S := S2000x1024) zero_offsets, View.ld_unit_zero (S := S1024x512) zero_offsets, View.ld_unit_zero (S := S1x512) zero_offsets]
  funext j
  obtain ⟨p, q, rfl⟩ : ∃ (p : Fin 2000) (q : Fin 512), j = ix2 p q := ⟨j 0, j 1, eq_ix2 j⟩
  have hN : cfg0.N = 10 := N_0
  have hlt : 2000 * t.val + p.val < 20000 := by have := t.isLt; have := p.isLt; omega
  show k0_pay1 (F := Ideal) (Gen.iblk0 V c 0 t) (Gen.iblk0 V c 1 t) (Gen.iblk0 V c 2 t) (ix2 p q)
    = Cert.Spec.mm true (V c main_v19) (V c main_v20) (V c main_v21) (((cfg0.win 3).blk t).view.emb (ix2 p q))
  rw [out_index0 t p q ⟨2000 * t.val + p.val, hlt⟩ rfl]
  exact relu_entry (Gen.iblk0 V c 0 t) (Gen.iblk0 V c 1 t) (Gen.iblk0 V c 2 t) (V c main_v19) (V c main_v20) (V c main_v21) p q ⟨2000 * t.val + p.val, hlt⟩
    (fun k => feat_block0 V c t p k ⟨2000 * t.val + p.val, hlt⟩ rfl) (fun k => weight_block0 V c t k q) (bias_block0 V c t 0 q)

/-- An index of the result is in point t's block when each coordinate is in the block's range on its axis. -/
theorem mem_block0 (t : Fin cfg0.N) (i : S20000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v22).slice (win0_3.rect t)).set ↔ _
  rw [View.set_slice_whole, Rect.mem_set_unit]
  exact Iff.rfl

/-- The ten blocks tile the result: row r lies in the block of point r / 2000. -/
theorem cover0 (i : S20000x512.Idx) : ∃ t : Fin cfg0.N, (cfg0.win 3).flush t = true ∧ i ∈ ((cfg0.win 3).blk t).view.set := by
  have hN : cfg0.N = 10 := N_0
  have h0 : (i 0).val < 20000 := (i 0).isLt
  have h1 : (i 1).val < 512 := (i 1).isLt
  have ht : (i 0).val / 2000 < cfg0.N := by omega
  obtain ⟨-, -, -, -, -, -, e0, e1⟩ := index_maps0 ⟨(i 0).val / 2000, ht⟩
  refine ⟨⟨(i 0).val / 2000, ht⟩, flush0_3 _, ?_⟩
  rw [mem_block0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 512 ≤ (i 1).val ∧ (i 1).val < win0_3.index ⟨(i 0).val / 2000, ht⟩ (1 : Fin 2) * 512 + 512
    rw [e1]; omega

/-- So region 0 leaves `mm` of the three arrays it reads in its result array. -/
theorem region0_out (c : Dev nD) :
    (Gen.dat0 (F := Ideal) V c).arrAt 3 cfg0.N = Cert.Spec.mm true (V c main_v19) (V c main_v20) (V c main_v21) :=
  (Gen.dat0 (F := Ideal) V c).arrAt_eq_of_cover 3 _ (fun t _ => flushed0 V c t) cover0

end Region0

end Cert.KernelIdeal.Val

end
-- ==== Proof.Region1.lean ====
/- Region 1 of the three: the same ten-point walk over blocks of 2000 rows as region 0, over its own four arrays. -/
import proofs.«110117_j60559038874107_1_alg».proof.Proof.Region0

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-! ## Region 1 -/

section Region1
variable (V : (c : Dev nD) → (b : Ref sig .tc) → Buf (Elt Ideal) ((c : Thread nD τ).loc b))

/-- The block indices of region 1's four windows at grid point t: the features and the result move down by one block of
    2000 rows per point; the weight and the bias are one block each, at the origin. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the features' block at point t is row 2000 t + p of the features. -/
theorem feat_block1 (c : Dev nD) (t : Fin cfg1.N) (p : Fin 2000) (k : Fin 1024) (i : Fin 20000) (hi : i.val = 2000 * t.val + p.val) :
    (Gen.iblk1 V c 0 t : Vec Ideal S2000x1024 .bf16) (ix2 p k) = (V c main_v38 : S20000x1024.Idx → Elt Ideal .bf16) (ix2 i k) := by
  obtain ⟨e0, e1, -⟩ := index_maps1 t
  unfold Gen.iblk1
  rw [View.read_apply]
  show V c main_v38 _ = V c main_v38 _
  congr 1
  funext a
  apply Fin.ext
  match a with
  | ⟨0, _⟩ => show win1_0.index t (0 : Fin 2) * 2000 + 1 * p.val = i.val; rw [e0, hi]; omega
  | ⟨1, _⟩ => show win1_0.index t (1 : Fin 2) * 1024 + 1 * k.val = k.val; rw [e1]; omega

/-- The weight's block at any point is the weight. -/
theorem weight_block1 (c : Dev nD) (t : Fin cfg1.N) (k : Fin 1024) (q : Fin 512) :
    (Gen.iblk1 V c 1 t : Vec Ideal S1024x512 .bf16) (ix2 k q) = (V c main_v39 : S1024x512.Idx → Elt Ideal .bf16) (ix2 k q) := by
  obtain ⟨-, -, e0, e1, -⟩ := index_maps1 t
  unfold Gen.iblk1
  rw [View.read_apply]
  show V c main_v39 _ = V c main_v39 _
  congr 1
  funext a
  apply Fin.ext
  match a with
  | ⟨0, _⟩ => show win1_1.index t (0 : Fin 2) * 1024 + 1 * k.val = k.val; rw [e0]; omega
  | ⟨1, _⟩ => show win1_1.index t (1 : Fin 2) * 512 + 1 * q.val = q.val; rw [e1]; omega

/-- The bias's block at any point is the bias. -/
theorem bias_block1 (c : Dev nD) (t : Fin cfg1.N) (z : Fin 1) (q : Fin 512) :
    (Gen.iblk1 V c 2 t : Vec Ideal S1x512 .f32) (ix2 z q) = (V c main_v40 : S1x512.Idx → Elt Ideal .f32) (ix2 z q) := by
  obtain ⟨-, -, -, -, e0, e1, -⟩ := index_maps1 t
  unfold Gen.iblk1
  rw [View.read_apply]
  show V c main_v40 _ = V c main_v40 _
  congr 1
  funext a
  apply Fin.ext
  match a with
  | ⟨0, _⟩ => show win1_2.index t (0 : Fin 2) * 1 + 1 * z.val = z.val; rw [e0]; omega
  | ⟨1, _⟩ => show win1_2.index t (1 : Fin 2) * 512 + 1 * q.val = q.val; rw [e1]; omega

/-- Entry (p, q) of the result's block at point t sits at (2000 t + p, q) in the result. -/
theorem out_index1 (t : Fin cfg1.N) (p : Fin 2000) (q : Fin 512) (i : Fin 20000) (hi : i.val = 2000 * t.val + p.val) :
    ((cfg1.win 3).blk t).view.emb (ix2 p q) = (ix2 i q : S20000x512.Idx) := by
  obtain ⟨-, -, -, -, -, -, e0, e1⟩ := index_maps1 t
  funext a
  apply Fin.ext
  match a with
  | ⟨0, _⟩ => show win1_3.index t (0 : Fin 2) * 2000 + 1 * p.val = i.val; rw [e0, hi]; omega
  | ⟨1, _⟩ => show win1_3.index t (1 : Fin 2) * 512 + 1 * q.val = q.val; rw [e1]; omega

/-- What point t writes back is its block of the one array `mm`: entry (p, q) of the body's result depends on row p of the
    features' block, that is row 2000 t + p of the features, on column q of the weight and on the bias at q. -/
theorem flushed1 (c : Dev nD) (t : Fin cfg1.N) :
    (Gen.dat1 (F := Ideal) V c).flushed 3 t
      = ((cfg1.win 3).blk t).view.read (Elt Ideal) (Cert.Spec.mm true (V c main_v38) (V c main_v39) (V c main_v40)) := by
  show (cfg1.win 3).cut (grid1.coords t) ((Gen.dat1 V c).after 3 t) = _
  rw [Gen.after1_3]
  unfold Gen.out1_3
  rw [View.canon_unit_zero zero_offsets]
  simp only [View.ld_unit_zero (S := S2000x1024) zero_offsets, View.ld_unit_zero (S := S1024x512) zero_offsets, View.ld_unit_zero (S := S1x512) zero_offsets]
  funext j
  obtain ⟨p, q, rfl⟩ : ∃ (p : Fin 2000) (q : Fin 512), j = ix2 p q := ⟨j 0, j 1, eq_ix2 j⟩
  have hN : cfg1.N = 10 := N_1
  have hlt : 2000 * t.val + p.val < 20000 := by have := t.isLt; have := p.isLt; omega
  show k1_pay1 (F := Ideal) (Gen.iblk1 V c 0 t) (Gen.iblk1 V c 1 t) (Gen.iblk1 V c 2 t) (ix2 p q)
    = Cert.Spec.mm true (V c main_v38) (V c main_v39) (V c main_v40) (((cfg1.win 3).blk t).view.emb (ix2 p q))
  rw [out_index1 t p q ⟨2000 * t.val + p.val, hlt⟩ rfl]
  exact relu_entry1 (Gen.iblk1 V c 0 t) (Gen.iblk1 V c 1 t) (Gen.iblk1 V c 2 t) (V c main_v38) (V c main_v39) (V c main_v40) p q ⟨2000 * t.val + p.val, hlt⟩
    (fun k => feat_block1 V c t p k ⟨2000 * t.val + p.val, hlt⟩ rfl) (fun k => weight_block1 V c t k q) (bias_block1 V c t 0 q)

/-- An index of the result is in point t's block when each coordinate is in the block's range on its axis. -/
theorem mem_block1 (t : Fin cfg1.N) (i : S20000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v41).slice (win1_3.rect t)).set ↔ _
  rw [View.set_slice_whole, Rect.mem_set_unit]
  exact Iff.rfl

/-- The ten blocks tile the result: row r lies in the block of point r / 2000. -/
theorem cover1 (i : S20000x512.Idx) : ∃ t : Fin cfg1.N, (cfg1.win 3).flush t = true ∧ i ∈ ((cfg1.win 3).blk t).view.set := by
  have hN : cfg1.N = 10 := N_1
  have h0 : (i 0).val < 20000 := (i 0).isLt
  have h1 : (i 1).val < 512 := (i 1).isLt
  have ht : (i 0).val / 2000 < cfg1.N := by omega
  obtain ⟨-, -, -, -, -, -, e0, e1⟩ := index_maps1 ⟨(i 0).val / 2000, ht⟩
  refine ⟨⟨(i 0).val / 2000, ht⟩, flush1_3 _, ?_⟩
  rw [mem_block1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 512 ≤ (i 1).val ∧ (i 1).val < win1_3.index ⟨(i 0).val / 2000, ht⟩ (1 : Fin 2) * 512 + 512
    rw [e1]; omega

/-- So region 1 leaves `mm` of the three arrays it reads in its result array. -/
theorem region1_out (c : Dev nD) :
    (Gen.dat1 (F := Ideal) V c).arrAt 3 cfg1.N = Cert.Spec.mm true (V c main_v38) (V c main_v39) (V c main_v40) :=
  (Gen.dat1 (F := Ideal) V c).arrAt_eq_of_cover 3 _ (fun t _ => flushed1 V c t) cover1

end Region1

end Cert.KernelIdeal.Val

end
-- ==== Proof.Region2.lean ====
/- Region 2 of the three: the same ten-point walk over blocks of 2000 rows as region 0, over its own four arrays, its body without the maximum. -/
import proofs.«110117_j60559038874107_1_alg».proof.Proof.Region0

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-! ## Region 2 -/

section Region2
variable (V : (c : Dev nD) → (b : Ref sig .tc) → Buf (Elt Ideal) ((c : Thread nD τ).loc b))

/-- The block indices of region 2's four windows at grid point t: the features and the result move down by one block of
    2000 rows per point; the weight and the bias are one block each, at the origin. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the features' block at point t is row 2000 t + p of the features. -/
theorem feat_block2 (c : Dev nD) (t : Fin cfg2.N) (p : Fin 2000) (k : Fin 1024) (i : Fin 20000) (hi : i.val = 2000 * t.val + p.val) :
    (Gen.iblk2 V c 0 t : Vec Ideal S2000x1024 .bf16) (ix2 p k) = (V c main_v57 : S20000x1024.Idx → Elt Ideal .bf16) (ix2 i k) := by
  obtain ⟨e0, e1, -⟩ := index_maps2 t
  unfold Gen.iblk2
  rw [View.read_apply]
  show V c main_v57 _ = V c main_v57 _
  congr 1
  funext a
  apply Fin.ext
  match a with
  | ⟨0, _⟩ => show win2_0.index t (0 : Fin 2) * 2000 + 1 * p.val = i.val; rw [e0, hi]; omega
  | ⟨1, _⟩ => show win2_0.index t (1 : Fin 2) * 1024 + 1 * k.val = k.val; rw [e1]; omega

/-- The weight's block at any point is the weight. -/
theorem weight_block2 (c : Dev nD) (t : Fin cfg2.N) (k : Fin 1024) (q : Fin 512) :
    (Gen.iblk2 V c 1 t : Vec Ideal S1024x512 .bf16) (ix2 k q) = (V c main_v58 : S1024x512.Idx → Elt Ideal .bf16) (ix2 k q) := by
  obtain ⟨-, -, e0, e1, -⟩ := index_maps2 t
  unfold Gen.iblk2
  rw [View.read_apply]
  show V c main_v58 _ = V c main_v58 _
  congr 1
  funext a
  apply Fin.ext
  match a with
  | ⟨0, _⟩ => show win2_1.index t (0 : Fin 2) * 1024 + 1 * k.val = k.val; rw [e0]; omega
  | ⟨1, _⟩ => show win2_1.index t (1 : Fin 2) * 512 + 1 * q.val = q.val; rw [e1]; omega

/-- The bias's block at any point is the bias. -/
theorem bias_block2 (c : Dev nD) (t : Fin cfg2.N) (z : Fin 1) (q : Fin 512) :
    (Gen.iblk2 V c 2 t : Vec Ideal S1x512 .f32) (ix2 z q) = (V c main_v59 : S1x512.Idx → Elt Ideal .f32) (ix2 z q) := by
  obtain ⟨-, -, -, -, e0, e1, -⟩ := index_maps2 t
  unfold Gen.iblk2
  rw [View.read_apply]
  show V c main_v59 _ = V c main_v59 _
  congr 1
  funext a
  apply Fin.ext
  match a with
  | ⟨0, _⟩ => show win2_2.index t (0 : Fin 2) * 1 + 1 * z.val = z.val; rw [e0]; omega
  | ⟨1, _⟩ => show win2_2.index t (1 : Fin 2) * 512 + 1 * q.val = q.val; rw [e1]; omega

/-- Entry (p, q) of the result's block at point t sits at (2000 t + p, q) in the result. -/
theorem out_index2 (t : Fin cfg2.N) (p : Fin 2000) (q : Fin 512) (i : Fin 20000) (hi : i.val = 2000 * t.val + p.val) :
    ((cfg2.win 3).blk t).view.emb (ix2 p q) = (ix2 i q : S20000x512.Idx) := by
  obtain ⟨-, -, -, -, -, -, e0, e1⟩ := index_maps2 t
  funext a
  apply Fin.ext
  match a with
  | ⟨0, _⟩ => show win2_3.index t (0 : Fin 2) * 2000 + 1 * p.val = i.val; rw [e0, hi]; omega
  | ⟨1, _⟩ => show win2_3.index t (1 : Fin 2) * 512 + 1 * q.val = q.val; rw [e1]; omega

/-- What point t writes back is its block of the one array `mm`: entry (p, q) of the body's result depends on row p of the
    features' block, that is row 2000 t + p of the features, on column q of the weight and on the bias at q. -/
theorem flushed2 (c : Dev nD) (t : Fin cfg2.N) :
    (Gen.dat2 (F := Ideal) V c).flushed 3 t
      = ((cfg2.win 3).blk t).view.read (Elt Ideal) (Cert.Spec.mm false (V c main_v57) (V c main_v58) (V c main_v59)) := by
  show (cfg2.win 3).cut (grid2.coords t) ((Gen.dat2 V c).after 3 t) = _
  rw [Gen.after2_3]
  unfold Gen.out2_3
  rw [View.canon_unit_zero zero_offsets]
  simp only [View.ld_unit_zero (S := S2000x1024) zero_offsets, View.ld_unit_zero (S := S1024x512) zero_offsets, View.ld_unit_zero (S := S1x512) zero_offsets]
  funext j
  obtain ⟨p, q, rfl⟩ : ∃ (p : Fin 2000) (q : Fin 512), j = ix2 p q := ⟨j 0, j 1, eq_ix2 j⟩
  have hN : cfg2.N = 10 := N_2
  have hlt : 2000 * t.val + p.val < 20000 := by have := t.isLt; have := p.isLt; omega
  show k2_pay1 (F := Ideal) (Gen.iblk2 V c 0 t) (Gen.iblk2 V c 1 t) (Gen.iblk2 V c 2 t) (ix2 p q)
    = Cert.Spec.mm false (V c main_v57) (V c main_v58) (V c main_v59) (((cfg2.win 3).blk t).view.emb (ix2 p q))
  rw [out_index2 t p q ⟨2000 * t.val + p.val, hlt⟩ rfl]
  exact linear_entry (Gen.iblk2 V c 0 t) (Gen.iblk2 V c 1 t) (Gen.iblk2 V c 2 t) (V c main_v57) (V c main_v58) (V c main_v59) p q ⟨2000 * t.val + p.val, hlt⟩
    (fun k => feat_block2 V c t p k ⟨2000 * t.val + p.val, hlt⟩ rfl) (fun k => weight_block2 V c t k q) (bias_block2 V c t 0 q)

/-- An index of the result is in point t's block when each coordinate is in the block's range on its axis. -/
theorem mem_block2 (t : Fin cfg2.N) (i : S20000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v60).slice (win2_3.rect t)).set ↔ _
  rw [View.set_slice_whole, Rect.mem_set_unit]
  exact Iff.rfl

/-- The ten blocks tile the result: row r lies in the block of point r / 2000. -/
theorem cover2 (i : S20000x512.Idx) : ∃ t : Fin cfg2.N, (cfg2.win 3).flush t = true ∧ i ∈ ((cfg2.win 3).blk t).view.set := by
  have hN : cfg2.N = 10 := N_2
  have h0 : (i 0).val < 20000 := (i 0).isLt
  have h1 : (i 1).val < 512 := (i 1).isLt
  have ht : (i 0).val / 2000 < cfg2.N := by omega
  obtain ⟨-, -, -, -, -, -, e0, e1⟩ := index_maps2 ⟨(i 0).val / 2000, ht⟩
  refine ⟨⟨(i 0).val / 2000, ht⟩, flush2_3 _, ?_⟩
  rw [mem_block2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 512 ≤ (i 1).val ∧ (i 1).val < win2_3.index ⟨(i 0).val / 2000, ht⟩ (1 : Fin 2) * 512 + 512
    rw [e1]; omega

/-- So region 2 leaves `mm` of the three arrays it reads in its result array. -/
theorem region2_out (c : Dev nD) :
    (Gen.dat2 (F := Ideal) V c).arrAt 3 cfg2.N = Cert.Spec.mm false (V c main_v57) (V c main_v58) (V c main_v59) :=
  (Gen.dat2 (F := Ideal) V c).arrAt_eq_of_cover 3 _ (fun t _ => flushed2 V c t) cover2

end Region2

end Cert.KernelIdeal.Val

end
-- ==== Proof.KernelHost.lean ====
/-
  The kernel program's host stretches, read back, and its result array as three fused layers of the arguments.

  Before each kernel region the program recomputes the edge columns, aggregates the current features, lays "agg, x"
  side by side, joins and transposes the layer's weights and adds its biases: exactly the arrays `feat`, `wcat`,
  `brow` of the layer's arguments, the current features being the previous region's result array. The edge rows are
  made once, before the first region, and no region or later stretch writes them or an argument, so every stretch
  finds them as the first stretch left them. With what each region leaves (one `mm` of its three arrays), the result
  array after the last region is `fusedNet` of the seventeen arguments.
-/
import proofs.«110117_j60559038874107_1_alg».proof.Proof.Gen.KernelIdeal.Frame
import proofs.«110117_j60559038874107_1_alg».proof.Proof.Spec
import proofs.«110117_j60559038874107_1_alg».proof.Proof.LibConcatPair
import proofs.«110117_j60559038874107_1_alg».proof.Proof.Region0
import proofs.«110117_j60559038874107_1_alg».proof.Proof.Region1
import proofs.«110117_j60559038874107_1_alg».proof.Proof.Region2
import Idealize.ShloMosaic.Lib.StableHlo.Run

noncomputable section

namespace Cert.KernelIdeal.Val

open Idealize.ShloMosaic Idealize.ShloMosaic.TcCoe Idealize.SL.Sem Cert.KernelIdeal Cert.KernelIdeal.Gen Idealize.ShloMosaic.StableHlo Cert.Spec

attribute [local congr] Idealize.ShloMosaic.ConcatPair.concatenate_pair_congr

variable (m : (ℓ : Loc nD τ sig) → Buf (Elt Ideal) ℓ) (ρ : Dev nD → PrngReg) (c : Dev nD)

/-! ## What the first stretch leaves -/

theorem W1_src : W1 m ρ c (Proc.devRef .tc main_v1) = srcRow (m ((c.tc : Thread nD τ).loc main_arg1)) := by
  show StableHlo.after hostOps0 (W0 m ρ c) (Proc.devRef .tc main_v1) = _
  after_results_simp <;> rfl
theorem W1_dst : W1 m ρ c (Proc.devRef .tc main_v3) = dstRow (m ((c.tc : Thread nD τ).loc main_arg1)) := by
  show StableHlo.after hostOps0 (W0 m ρ c) (Proc.devRef .tc main_v3) = _
  after_results_simp <;> rfl
theorem W1_arg7 : W1 m ρ c (Proc.devRef .tc main_arg7) = (m ((c.tc : Thread nD τ).loc main_arg7)) := by
  show StableHlo.after hostOps0 (W0 m ρ c) (Proc.devRef .tc main_arg7) = _
  after_results_simp <;> rfl
theorem W1_arg8 : W1 m ρ c (Proc.devRef .tc main_arg8) = (m ((c.tc : Thread nD τ).loc main_arg8)) := by
  show StableHlo.after hostOps0 (W0 m ρ c) (Proc.devRef .tc main_arg8) = _
  after_results_simp <;> rfl
theorem W1_arg9 : W1 m ρ c (Proc.devRef .tc main_arg9) = (m ((c.tc : Thread nD τ).loc main_arg9)) := by
  show StableHlo.after hostOps0 (W0 m ρ c) (Proc.devRef .tc main_arg9) = _
  after_results_simp <;> rfl
theorem W1_arg10 : W1 m ρ c (Proc.devRef .tc main_arg10) = (m ((c.tc : Thread nD τ).loc main_arg10)) := by
  show StableHlo.after hostOps0 (W0 m ρ c) (Proc.devRef .tc main_arg10) = _
  after_results_simp <;> rfl
theorem W1_arg11 : W1 m ρ c (Proc.devRef .tc main_arg11) = (m ((c.tc : Thread nD τ).loc main_arg11)) := by
  show StableHlo.after hostOps0 (W0 m ρ c) (Proc.devRef .tc main_arg11) = _
  after_results_simp <;> rfl
theorem W1_arg12 : W1 m ρ c (Proc.devRef .tc main_arg12) = (m ((c.tc : Thread nD τ).loc main_arg12)) := by
  show StableHlo.after hostOps0 (W0 m ρ c) (Proc.devRef .tc main_arg12) = _
  after_results_simp <;> rfl
theorem W1_arg13 : W1 m ρ c (Proc.devRef .tc main_arg13) = (m ((c.tc : Thread nD τ).loc main_arg13)) := by
  show StableHlo.after hostOps0 (W0 m ρ c) (Proc.devRef .tc main_arg13) = _
  after_results_simp <;> rfl
theorem W1_arg14 : W1 m ρ c (Proc.devRef .tc main_arg14) = (m ((c.tc : Thread nD τ).loc main_arg14)) := by
  show StableHlo.after hostOps0 (W0 m ρ c) (Proc.devRef .tc main_arg14) = _
  after_results_simp <;> rfl
theorem W1_arg15 : W1 m ρ c (Proc.devRef .tc main_arg15) = (m ((c.tc : Thread nD τ).loc main_arg15)) := by
  show StableHlo.after hostOps0 (W0 m ρ c) (Proc.devRef .tc main_arg15) = _
  after_results_simp <;> rfl
theorem W1_arg16 : W1 m ρ c (Proc.devRef .tc main_arg16) = (m ((c.tc : Thread nD τ).loc main_arg16)) := by
  show StableHlo.after hostOps0 (W0 m ρ c) (Proc.devRef .tc main_arg16) = _
  after_results_simp <;> rfl

theorem feat1 : (V1 m ρ c main_v19 : (⟨S20000x1024, .bf16⟩ : BufTy).Contents (Elt Ideal)) = feat (m ((c.tc : Thread nD τ).loc main_arg0)) (srcRow (m ((c.tc : Thread nD τ).loc main_arg1))) (dstRow (m ((c.tc : Thread nD τ).loc main_arg1))) := by
  show StableHlo.after hostOps0 (W0 m ρ c) (Proc.devRef .tc main_v19) = _
  after_results_simp <;> rfl
theorem wcat1 : (V1 m ρ c main_v20 : (⟨S1024x512, .bf16⟩ : BufTy).Contents (Elt Ideal)) = wcat (m ((c.tc : Thread nD τ).loc main_arg2)) (m ((c.tc : Thread nD τ).loc main_arg4)) (m ((c.tc : Thread nD τ).loc main_arg5)) := by
  show StableHlo.after hostOps0 (W0 m ρ c) (Proc.devRef .tc main_v20) = _
  after_results_simp <;> rfl
theorem brow1 : (V1 m ρ c main_v21 : (⟨S1x512, .f32⟩ : BufTy).Contents (Elt Ideal)) = brow (m ((c.tc : Thread nD τ).loc main_arg3)) (m ((c.tc : Thread nD τ).loc main_arg6)) := by
  show StableHlo.after hostOps0 (W0 m ρ c) (Proc.devRef .tc main_v21) = _
  after_results_simp <;> rfl

/-- The first layer's features. -/
abbrev X1 : (⟨S20000x512, .f32⟩ : BufTy).Contents (Elt Ideal) :=
  fusedLayer true (m ((c.tc : Thread nD τ).loc main_arg0)) (srcRow (m ((c.tc : Thread nD τ).loc main_arg1))) (dstRow (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- Region 0 leaves the first layer in its result array. -/
theorem W2_out : W2 m ρ c (Proc.devRef .tc main_v22) = X1 m c := by
  refine (W2_arr m ρ c 3).trans ?_
  rw [region0_out, feat1, wcat1, brow1]
  rfl

/-! ## The second stretch and region 1 -/

theorem W2_src : W2 m ρ c (Proc.devRef .tc main_v1) = srcRow (m ((c.tc : Thread nD τ).loc main_arg1)) :=
  (W2_of_ne m ρ c main_v1 (by decide)).trans (W1_src m ρ c)
theorem W2_dst : W2 m ρ c (Proc.devRef .tc main_v3) = dstRow (m ((c.tc : Thread nD τ).loc main_arg1)) :=
  (W2_of_ne m ρ c main_v3 (by decide)).trans (W1_dst m ρ c)
theorem W2_arg7 : W2 m ρ c (Proc.devRef .tc main_arg7) = (m ((c.tc : Thread nD τ).loc main_arg7)) :=
  (W2_of_ne m ρ c main_arg7 (by decide)).trans (W1_arg7 m ρ c)
theorem W2_arg8 : W2 m ρ c (Proc.devRef .tc main_arg8) = (m ((c.tc : Thread nD τ).loc main_arg8)) :=
  (W2_of_ne m ρ c main_arg8 (by decide)).trans (W1_arg8 m ρ c)
theorem W2_arg9 : W2 m ρ c (Proc.devRef .tc main_arg9) = (m ((c.tc : Thread nD τ).loc main_arg9)) :=
  (W2_of_ne m ρ c main_arg9 (by decide)).trans (W1_arg9 m ρ c)
theorem W2_arg10 : W2 m ρ c (Proc.devRef .tc main_arg10) = (m ((c.tc : Thread nD τ).loc main_arg10)) :=
  (W2_of_ne m ρ c main_arg10 (by decide)).trans (W1_arg10 m ρ c)
theorem W2_arg11 : W2 m ρ c (Proc.devRef .tc main_arg11) = (m ((c.tc : Thread nD τ).loc main_arg11)) :=
  (W2_of_ne m ρ c main_arg11 (by decide)).trans (W1_arg11 m ρ c)
theorem W2_arg12 : W2 m ρ c (Proc.devRef .tc main_arg12) = (m ((c.tc : Thread nD τ).loc main_arg12)) :=
  (W2_of_ne m ρ c main_arg12 (by decide)).trans (W1_arg12 m ρ c)
theorem W2_arg13 : W2 m ρ c (Proc.devRef .tc main_arg13) = (m ((c.tc : Thread nD τ).loc main_arg13)) :=
  (W2_of_ne m ρ c main_arg13 (by decide)).trans (W1_arg13 m ρ c)
theorem W2_arg14 : W2 m ρ c (Proc.devRef .tc main_arg14) = (m ((c.tc : Thread nD τ).loc main_arg14)) :=
  (W2_of_ne m ρ c main_arg14 (by decide)).trans (W1_arg14 m ρ c)
theorem W2_arg15 : W2 m ρ c (Proc.devRef .tc main_arg15) = (m ((c.tc : Thread nD τ).loc main_arg15)) :=
  (W2_of_ne m ρ c main_arg15 (by decide)).trans (W1_arg15 m ρ c)
theorem W2_arg16 : W2 m ρ c (Proc.devRef .tc main_arg16) = (m ((c.tc : Thread nD τ).loc main_arg16)) :=
  (W2_of_ne m ρ c main_arg16 (by decide)).trans (W1_arg16 m ρ c)

theorem feat2 : (V3 m ρ c main_v38 : (⟨S20000x1024, .bf16⟩ : BufTy).Contents (Elt Ideal)) = feat (X1 m c) (srcRow (m ((c.tc : Thread nD τ).loc main_arg1))) (dstRow (m ((c.tc : Thread nD τ).loc main_arg1))) := by
  show StableHlo.after hostOps1 (W2 m ρ c) (Proc.devRef .tc main_v38) = _
  after_results_simp
  rw [W2_out, W2_src, W2_dst]
  rfl
theorem wcat2 : (V3 m ρ c main_v39 : (⟨S1024x512, .bf16⟩ : BufTy).Contents (Elt Ideal)) = wcat (m ((c.tc : Thread nD τ).loc main_arg7)) (m ((c.tc : Thread nD τ).loc main_arg9)) (m ((c.tc : Thread nD τ).loc main_arg10)) := by
  show StableHlo.after hostOps1 (W2 m ρ c) (Proc.devRef .tc main_v39) = _
  after_results_simp
  rw [W2_arg7, W2_arg9, W2_arg10]
  rfl
theorem brow2 : (V3 m ρ c main_v40 : (⟨S1x512, .f32⟩ : BufTy).Contents (Elt Ideal)) = brow (m ((c.tc : Thread nD τ).loc main_arg8)) (m ((c.tc : Thread nD τ).loc main_arg11)) := by
  show StableHlo.after hostOps1 (W2 m ρ c) (Proc.devRef .tc main_v40) = _
  after_results_simp
  rw [W2_arg8, W2_arg11]
  rfl

/-- The second layer's features. -/
abbrev X2 : (⟨S20000x512, .f32⟩ : BufTy).Contents (Elt Ideal) :=
  fusedLayer true (X1 m c) (srcRow (m ((c.tc : Thread nD τ).loc main_arg1))) (dstRow (m ((c.tc : Thread nD τ).loc main_arg1))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- Region 1 leaves the second layer in its result array. -/
theorem W4_out : W4 m ρ c (Proc.devRef .tc main_v41) = X2 m c := by
  refine (W4_arr m ρ c 3).trans ?_
  rw [region1_out, feat2, wcat2, brow2]
  rfl

/-! ## The third stretch and region 2 -/

theorem W3_src : W3 m ρ c (Proc.devRef .tc main_v1) = srcRow (m ((c.tc : Thread nD τ).loc main_arg1)) := by
  show StableHlo.after hostOps1 (W2 m ρ c) (Proc.devRef .tc main_v1) = _
  after_results_simp
  exact W2_src m ρ c
theorem W3_dst : W3 m ρ c (Proc.devRef .tc main_v3) = dstRow (m ((c.tc : Thread nD τ).loc main_arg1)) := by
  show StableHlo.after hostOps1 (W2 m ρ c) (Proc.devRef .tc main_v3) = _
  after_results_simp
  exact W2_dst m ρ c
theorem W3_arg12 : W3 m ρ c (Proc.devRef .tc main_arg12) = (m ((c.tc : Thread nD τ).loc main_arg12)) := by
  show StableHlo.after hostOps1 (W2 m ρ c) (Proc.devRef .tc main_arg12) = _
  after_results_simp
  exact W2_arg12 m ρ c
theorem W3_arg13 : W3 m ρ c (Proc.devRef .tc main_arg13) = (m ((c.tc : Thread nD τ).loc main_arg13)) := by
  show StableHlo.after hostOps1 (W2 m ρ c) (Proc.devRef .tc main_arg13) = _
  after_results_simp
  exact W2_arg13 m ρ c
theorem W3_arg14 : W3 m ρ c (Proc.devRef .tc main_arg14) = (m ((c.tc : Thread nD τ).loc main_arg14)) := by
  show StableHlo.after hostOps1 (W2 m ρ c) (Proc.devRef .tc main_arg14) = _
  after_results_simp
  exact W2_arg14 m ρ c
theorem W3_arg15 : W3 m ρ c (Proc.devRef .tc main_arg15) = (m ((c.tc : Thread nD τ).loc main_arg15)) := by
  show StableHlo.after hostOps1 (W2 m ρ c) (Proc.devRef .tc main_arg15) = _
  after_results_simp
  exact W2_arg15 m ρ c
theorem W3_arg16 : W3 m ρ c (Proc.devRef .tc main_arg16) = (m ((c.tc : Thread nD τ).loc main_arg16)) := by
  show StableHlo.after hostOps1 (W2 m ρ c) (Proc.devRef .tc main_arg16) = _
  after_results_simp
  exact W2_arg16 m ρ c

theorem W4_src : W4 m ρ c (Proc.devRef .tc main_v1) = srcRow (m ((c.tc : Thread nD τ).loc main_arg1)) :=
  (W4_of_ne m ρ c main_v1 (by decide)).trans (W3_src m ρ c)
theorem W4_dst : W4 m ρ c (Proc.devRef .tc main_v3) = dstRow (m ((c.tc : Thread nD τ).loc main_arg1)) :=
  (W4_of_ne m ρ c main_v3 (by decide)).trans (W3_dst m ρ c)
theorem W4_arg12 : W4 m ρ c (Proc.devRef .tc main_arg12) = (m ((c.tc : Thread nD τ).loc main_arg12)) :=
  (W4_of_ne m ρ c main_arg12 (by decide)).trans (W3_arg12 m ρ c)
theorem W4_arg13 : W4 m ρ c (Proc.devRef .tc main_arg13) = (m ((c.tc : Thread nD τ).loc main_arg13)) :=
  (W4_of_ne m ρ c main_arg13 (by decide)).trans (W3_arg13 m ρ c)
theorem W4_arg14 : W4 m ρ c (Proc.devRef .tc main_arg14) = (m ((c.tc : Thread nD τ).loc main_arg14)) :=
  (W4_of_ne m ρ c main_arg14 (by decide)).trans (W3_arg14 m ρ c)
theorem W4_arg15 : W4 m ρ c (Proc.devRef .tc main_arg15) = (m ((c.tc : Thread nD τ).loc main_arg15)) :=
  (W4_of_ne m ρ c main_arg15 (by decide)).trans (W3_arg15 m ρ c)
theorem W4_arg16 : W4 m ρ c (Proc.devRef .tc main_arg16) = (m ((c.tc : Thread nD τ).loc main_arg16)) :=
  (W4_of_ne m ρ c main_arg16 (by decide)).trans (W3_arg16 m ρ c)

theorem feat3 : (V5 m ρ c main_v57 : (⟨S20000x1024, .bf16⟩ : BufTy).Contents (Elt Ideal)) = feat (X2 m c) (srcRow (m ((c.tc : Thread nD τ).loc main_arg1))) (dstRow (m ((c.tc : Thread nD τ).loc main_arg1))) := by
  show StableHlo.after hostOps2 (W4 m ρ c) (Proc.devRef .tc main_v57) = _
  after_results_simp
  rw [W4_out, W4_src, W4_dst]
  rfl
theorem wcat3 : (V5 m ρ c main_v58 : (⟨S1024x512, .bf16⟩ : BufTy).Contents (Elt Ideal)) = wcat (m ((c.tc : Thread nD τ).loc main_arg12)) (m ((c.tc : Thread nD τ).loc main_arg14)) (m ((c.tc : Thread nD τ).loc main_arg15)) := by
  show StableHlo.after hostOps2 (W4 m ρ c) (Proc.devRef .tc main_v58) = _
  after_results_simp
  rw [W4_arg12, W4_arg14, W4_arg15]
  rfl
theorem brow3 : (V5 m ρ c main_v59 : (⟨S1x512, .f32⟩ : BufTy).Contents (Elt Ideal)) = brow (m ((c.tc : Thread nD τ).loc main_arg13)) (m ((c.tc : Thread nD τ).loc main_arg16)) := by
  show StableHlo.after hostOps2 (W4 m ρ c) (Proc.devRef .tc main_v59) = _
  after_results_simp
  rw [W4_arg13, W4_arg16]
  rfl

/-- THE RESULT ARRAY after the last region: three fused layers of the seventeen arguments. -/
theorem W6_out : W6 m ρ c (Proc.devRef .tc main_v60)
    = fusedNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (W6_arr m ρ c 3).trans ?_
  rw [region2_out, feat3, wcat3, brow3]
  rfl

end Cert.KernelIdeal.Val

end
-- ==== Proof.RefValue.lean ====
/-
  The reference program's result, read one layer at a time, is the plain three-layer network of the
  specification.

  Every layer of the reference is the same chain of operations on a pair (A, X) of arrays [20000, 512] (A the
  aggregated neighbours of X): three contractions against TRANSPOSED weight matrices, two bias rows broadcast
  down the 20000 rows, and four additions. Read at the entry (p, q), a contraction with the transposed weight W
  is the sum over k of (row p of the left operand at k) times W at (q, k), and a broadcast bias row is the bias
  at q; so the chain is, entry by entry, the expression 'unfused' of the specification. The first two layers end
  with a maximum against an array of zeros, which is the specification's 'post true'; the last layer ends
  without it ('post false').
-/
import proofs.«110117_j60559038874107_1_alg».proof.Proof.Gen.ReferenceIdeal.Read
import proofs.«110117_j60559038874107_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## One layer's chain of operations over an arbitrary pair (A, X) -/

/-- The chain every layer runs before its final maximum: (A·wrelᵀ + brel) + X·wrootᵀ + (X·wlinᵀ + blin). It is
    written with the first layer's operations, which are functions of their operands only. -/
def chain (A X : (⟨S20000x512, .f32⟩ : BufTy).Contents (Elt Ideal)) (wrel : (⟨S512x512, .f32⟩ : BufTy).Contents (Elt Ideal))
    (brel : (⟨S512, .f32⟩ : BufTy).Contents (Elt Ideal)) (wroot wlin : (⟨S512x512, .f32⟩ : BufTy).Contents (Elt Ideal))
    (blin : (⟨S512, .f32⟩ : BufTy).Contents (Elt Ideal)) : (⟨S20000x512, .f32⟩ : BufTy).Contents (Elt Ideal) :=
  addf (F := Ideal) (φ := .f32)
    (addf (F := Ideal) (φ := .f32)
      (addf (F := Ideal) (φ := .f32) (val_main_v20 (F := Ideal) A wrel) (val_main_v17 (F := Ideal) brel))
      (val_main_v20 (F := Ideal) X wroot))
    (val_main_v26 (F := Ideal) X wlin blin)

theorem chain_apply (A X : (⟨S20000x512, .f32⟩ : BufTy).Contents (Elt Ideal)) (wrel : (⟨S512x512, .f32⟩ : BufTy).Contents (Elt Ideal))
    (brel : (⟨S512, .f32⟩ : BufTy).Contents (Elt Ideal)) (wroot wlin : (⟨S512x512, .f32⟩ : BufTy).Contents (Elt Ideal))
    (blin : (⟨S512, .f32⟩ : BufTy).Contents (Elt Ideal)) (i : S20000x512.Idx) :
    chain A X wrel brel wroot wlin blin i
      = ((val_main_v20 (F := Ideal) A wrel i + val_main_v17 (F := Ideal) brel i) + val_main_v20 (F := Ideal) X wroot i)
        + val_main_v26 (F := Ideal) X wlin blin i := rfl

/-! ## Which entries the operations read -/

/-- The left operand of a contraction is read along row p. -/
theorem left20 (p : Fin 20000) (q k : Fin 512) : lidx_main_v20 (ix2 p q) k = ix2 p k :=
  funext fun a => Fin.ext (by match a with | ⟨0, _⟩ => rfl | ⟨1, _⟩ => rfl)

theorem left23 (p : Fin 20000) (q k : Fin 512) : lidx_main_v23 (ix2 p q) k = ix2 p k :=
  funext fun a => Fin.ext (by match a with | ⟨0, _⟩ => rfl | ⟨1, _⟩ => rfl)

/-- The weight is transposed before the contraction, so it is read at (q, k). -/
theorem right20 (p : Fin 20000) (q k : Fin 512) : idx_main_v19 (ridx_main_v20 (ix2 p q) k) = ix2 q k :=
  funext fun a => Fin.ext (by match a with | ⟨0, _⟩ => rfl | ⟨1, _⟩ => rfl)

theorem right23 (p : Fin 20000) (q k : Fin 512) : idx_main_v22 (ridx_main_v23 (ix2 p q) k) = ix2 q k :=
  funext fun a => Fin.ext (by match a with | ⟨0, _⟩ => rfl | ⟨1, _⟩ => rfl)

/-- A bias row broadcast down the rows is read at q. -/
theorem bias17 (p : Fin 20000) (q : Fin 512) : idx_main_v16 (idx_main_v17 (ix2 p q)) = ix1 q :=
  funext fun a => Fin.ext (by match a with | ⟨0, _⟩ => rfl)

theorem bias25 (p : Fin 20000) (q : Fin 512) : idx_main_v24 (idx_main_v25 (ix2 p q)) = ix1 q :=
  funext fun a => Fin.ext (by match a with | ⟨0, _⟩ => rfl)

/-- The chain at the entry (p, q) is the specification's unfused expression. -/
theorem chain_entry (A X : (⟨S20000x512, .f32⟩ : BufTy).Contents (Elt Ideal)) (wrel : (⟨S512x512, .f32⟩ : BufTy).Contents (Elt Ideal))
    (brel : (⟨S512, .f32⟩ : BufTy).Contents (Elt Ideal)) (wroot wlin : (⟨S512x512, .f32⟩ : BufTy).Contents (Elt Ideal))
    (blin : (⟨S512, .f32⟩ : BufTy).Contents (Elt Ideal)) (p : Fin 20000) (q : Fin 512) :
    chain A X wrel brel wroot wlin blin (ix2 p q) = Cert.Spec.unfused A X wrel wroot wlin brel blin p q := by
  rw [chain_apply, val_main_v20_apply, val_main_v20_apply, val_main_v17_apply, val_main_v16_apply, val_main_v26_apply,
    val_main_v23_apply, val_main_v25_apply, val_main_v24_apply, bias17, bias25]
  simp only [val_main_v19_apply, val_main_v22_apply, left20, left23, right20, right23, Ideal.addf_def]
  rfl

/-! ## The layer's end: a maximum against zeros, or nothing -/

/-- The chain over (agg X, X), with nothing after it, is the plain layer without the maximum. -/
theorem chain_eq_plainLayer_false (X : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal)) (wroot wlin : (⟨S512x512, .f32⟩ : BufTy).Contents (Elt Ideal)) (blin : (⟨S512, .f32⟩ : BufTy).Contents (Elt Ideal)) :
    chain (Cert.Spec.agg X s t) X wrel brel wroot wlin blin = Cert.Spec.plainLayer false X s t wrel brel wroot wlin blin := by
  funext i
  obtain ⟨p, q, rfl⟩ : ∃ (p : Fin 20000) (q : Fin 512), i = ix2 p q := ⟨i 0, i 1, eq_ix2 i⟩
  rw [Cert.Spec.plainLayer_apply, chain_entry]
  rfl

/-- The maximum against the array of zeros, read at an entry. -/
theorem relu_apply (Y : (⟨S20000x512, .f32⟩ : BufTy).Contents (Elt Ideal)) (i : S20000x512.Idx) :
    maximumf (F := Ideal) (φ := .f32) Y (val_main_call0_v0 (F := Ideal)) i
      = FloatOps.maximumf (F := Ideal) (φ := .f32) (Y i) (val_main_call0_v0 (F := Ideal) i) := rfl

/-- The chain over (agg X, X) followed by the maximum against the array of zeros is the plain layer with the
    maximum: the array of zeros reads, at every entry, the word the specification calls 'zeroWord'. -/
theorem relu_chain_eq_plainLayer_true (X : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal)) (wroot wlin : (⟨S512x512, .f32⟩ : BufTy).Contents (Elt Ideal)) (blin : (⟨S512, .f32⟩ : BufTy).Contents (Elt Ideal)) :
    maximumf (F := Ideal) (φ := .f32) (chain (Cert.Spec.agg X s t) X wrel brel wroot wlin blin) (val_main_call0_v0 (F := Ideal))
      = Cert.Spec.plainLayer true X s t wrel brel wroot wlin blin := by
  funext i
  obtain ⟨p, q, rfl⟩ : ∃ (p : Fin 20000) (q : Fin 512), i = ix2 p q := ⟨i 0, i 1, eq_ix2 i⟩
  rw [Cert.Spec.plainLayer_apply, relu_apply, chain_entry, val_main_call0_v0_apply, val_main_call0_cst_apply, Ideal.maximumf_def, Ideal.ofBits_def]
  rfl

/-! ## The three layers of the reference -/

section Layers
variable (x0 : (⟨S20000x512, .f32⟩ : BufTy).Contents (Elt Ideal)) (x1 : (⟨S2x160000, .i32⟩ : BufTy).Contents (Elt Ideal))
  (x2 : (⟨S512x512, .f32⟩ : BufTy).Contents (Elt Ideal)) (x3 : (⟨S512, .f32⟩ : BufTy).Contents (Elt Ideal)) (x4 x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal)) (x9 x10 : (⟨S512x512, .f32⟩ : BufTy).Contents (Elt Ideal)) (x11 : (⟨S512, .f32⟩ : BufTy).Contents (Elt Ideal))
  (x12 : (⟨S512x512, .f32⟩ : BufTy).Contents (Elt Ideal)) (x13 : (⟨S512, .f32⟩ : BufTy).Contents (Elt Ideal)) (x14 x15 : (⟨S512x512, .f32⟩ : BufTy).Contents (Elt Ideal)) (x16 : (⟨S512, .f32⟩ : BufTy).Contents (Elt Ideal))

/-- The first aggregation is the specification's, over the input features. -/
theorem agg1 : val_main_v13 (F := Ideal) x0 x1 = Cert.Spec.agg x0 (Cert.Spec.srcRow x1) (Cert.Spec.dstRow x1) := rfl

/-- The second aggregation is the specification's, over the first layer's result. -/
theorem agg2 : val_main_v38 (F := Ideal) x0 x1 x2 x3 x4 x5 x6
    = Cert.Spec.agg (val_main_v28 (F := Ideal) x0 x1 x2 x3 x4 x5 x6) (Cert.Spec.srcRow x1) (Cert.Spec.dstRow x1) := rfl

/-- The third aggregation is the specification's, over the second layer's result. -/
theorem agg3 : val_main_v63 (F := Ideal) x0 x1 x2 x3 x4 x5 x6 x7 x8 x9 x10 x11
    = Cert.Spec.agg (val_main_v53 (F := Ideal) x0 x1 x2 x3 x4 x5 x6 x7 x8 x9 x10 x11) (Cert.Spec.srcRow x1) (Cert.Spec.dstRow x1) := rfl

/-- Layer 1 before its maximum is the chain over (first aggregation, input features). -/
theorem pre1 : val_main_v27 (F := Ideal) x0 x1 x2 x3 x4 x5 x6 = chain (val_main_v13 (F := Ideal) x0 x1) x0 x2 x3 x4 x5 x6 := rfl

/-- Layer 2 before its maximum is the chain over (second aggregation, layer 1's result). -/
theorem pre2 : val_main_v52 (F := Ideal) x0 x1 x2 x3 x4 x5 x6 x7 x8 x9 x10 x11
    = chain (val_main_v38 (F := Ideal) x0 x1 x2 x3 x4 x5 x6) (val_main_v28 (F := Ideal) x0 x1 x2 x3 x4 x5 x6) x7 x8 x9 x10 x11 := rfl

/-- Layer 3 is the chain over (third aggregation, layer 2's result). -/
theorem pre3 : val_main_v77 (F := Ideal) x0 x1 x2 x3 x4 x5 x6 x7 x8 x9 x10 x11 x12 x13 x14 x15 x16
    = chain (val_main_v63 (F := Ideal) x0 x1 x2 x3 x4 x5 x6 x7 x8 x9 x10 x11) (val_main_v53 (F := Ideal) x0 x1 x2 x3 x4 x5 x6 x7 x8 x9 x10 x11)
        x12 x13 x14 x15 x16 := rfl

theorem layer1 : val_main_v28 (F := Ideal) x0 x1 x2 x3 x4 x5 x6
    = Cert.Spec.plainLayer true x0 (Cert.Spec.srcRow x1) (Cert.Spec.dstRow x1) x2 x3 x4 x5 x6 := by
  show maximumf (F := Ideal) (φ := .f32) (val_main_v27 (F := Ideal) x0 x1 x2 x3 x4 x5 x6) (val_main_call0_v0 (F := Ideal)) = _
  rw [pre1, agg1]
  exact relu_chain_eq_plainLayer_true x0 _ _ x2 x3 x4 x5 x6

theorem layer2 : val_main_v53 (F := Ideal) x0 x1 x2 x3 x4 x5 x6 x7 x8 x9 x10 x11
    = Cert.Spec.plainLayer true (val_main_v28 (F := Ideal) x0 x1 x2 x3 x4 x5 x6) (Cert.Spec.srcRow x1) (Cert.Spec.dstRow x1) x7 x8 x9 x10 x11 := by
  show maximumf (F := Ideal) (φ := .f32) (val_main_v52 (F := Ideal) x0 x1 x2 x3 x4 x5 x6 x7 x8 x9 x10 x11) (val_main_call1_v0 (F := Ideal)) = _
  rw [pre2, agg2]
  generalize val_main_v28 (F := Ideal) x0 x1 x2 x3 x4 x5 x6 = X
  exact relu_chain_eq_plainLayer_true X _ _ x7 x8 x9 x10 x11

theorem layer3 : val_main_v77 (F := Ideal) x0 x1 x2 x3 x4 x5 x6 x7 x8 x9 x10 x11 x12 x13 x14 x15 x16
    = Cert.Spec.plainLayer false (val_main_v53 (F := Ideal) x0 x1 x2 x3 x4 x5 x6 x7 x8 x9 x10 x11) (Cert.Spec.srcRow x1) (Cert.Spec.dstRow x1)
        x12 x13 x14 x15 x16 := by
  rw [pre3, agg3]
  generalize val_main_v53 (F := Ideal) x0 x1 x2 x3 x4 x5 x6 x7 x8 x9 x10 x11 = X
  exact chain_eq_plainLayer_false X _ _ x12 x13 x14 x15 x16

/-- The reference's result is the specification's plain network of the seventeen arguments. -/
theorem result_eq : val_main_v77 (F := Ideal) x0 x1 x2 x3 x4 x5 x6 x7 x8 x9 x10 x11 x12 x13 x14 x15 x16
    = Cert.Spec.plainNet x0 x1 x2 x3 x4 x5 x6 x7 x8 x9 x10 x11 x12 x13 x14 x15 x16 := by
  unfold Cert.Spec.plainNet
  rw [layer3, layer2, layer1]
end Layers

end Cert.ReferenceIdeal.RefValue

end
-- ==== Proof.Finite.lean ====
/-
  From "every float input is finite" to "every entry of every float input is a real number".

  The precondition computes, for each of the sixteen float arrays x, the conjunction over all entries of
  |x| < +∞, and then the conjunction of the sixteen bits; it says the result is 1. A conjunction of bits is 1 only
  if each bit is 1, and a conjunction over all entries is 1 only if it is 1 at each entry. On the extended reals
  |a| is max a (-a) and the word of +∞ denotes ⊤, so the entry fact is max a (-a) < ⊤: this excludes a = ⊤ (then
  max a (-a) = ⊤) and a = ⊥ (then -a = ⊤), and what is left of the extended reals is the real numbers.
-/
import proofs.«110117_j60559038874107_1_alg».proof.Defs
import proofs.«110117_j60559038874107_1_alg».proof.Proof.Gen.KernelIdeal
import proofs.«110117_j60559038874107_1_alg».proof.Proof.Gen.Pre_finite_inputs
import proofs.«110117_j60559038874107_1_alg».proof.Proof.LayerLaw
import Idealize.ShloMosaic.Lib.ReduceAll
import Idealize.ShloMosaic.Lib.ValueIdx
import Idealize.ShloMosaic.PureOps.Ideal.Laws

noncomputable section

namespace Cert.KernelIdeal.Val

open Cert.KernelIdeal Idealize.ShloMosaic Idealize.SL.Sem Cert.LayerLaw

/-- The shape with no axes has exactly one index. -/
instance : Subsingleton S_.Idx := ⟨fun a b => funext fun d => d.elim0⟩

/-- One comparison read back: |a| < +∞ on the extended reals says that a is a real number. -/
theorem real_of_abs_lt_inf (a : EReal)
    (e : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at e
  rw [htop] at e
  induction a using EReal.rec with
  | bot => simp [Ideal.cmp] at e
  | coe r => exact ⟨r, rfl⟩
  | top => simp [Ideal.cmp] at e

/-- The comparison form: |x| below +∞ at every entry says every entry of x is a real number. -/
theorem allReal_of_cmp {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) :
    AllReal (x : s.Idx → EReal) := fun i => real_of_abs_lt_inf (x i) (h i)

/-- "All entries of |x| are below +∞" reduced to one bit that is 1: every entry of x is a real number. Generic in
    the array's shape and in the axes reduced, as long as the result has no axes left. -/
theorem allReal_of_all_lt_inf {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    AllReal (x : s.Idx → EReal) :=
  allReal_of_cmp x hb (Host.reduce_andi_all _ _ hr hu j e)

section Parts

open Cert.Pre_finite_inputs (fn fn_part1 fn_part2 fn_part3 fn_part4)
open ValueIdx (ix0)

/-- The last stretch of the predicate: if it is 1, so were the two bits it was handed, and its two arrays are real. -/
theorem part4_one (a15 : FVec Ideal S512x512 .f32) (a16 : FVec Ideal S512 .f32) (v63 v67 : IVec S_ 1)
    (e : fn_part4 (F := Ideal) a15 a16 v63 v67 ix0 = 1#1) :
    v63 ix0 = 1#1 ∧ v67 ix0 = 1#1 ∧ AllReal (a15 : S512x512.Idx → EReal) ∧ AllReal (a16 : S512.Idx → EReal) := by
  dsimp only [fn_part4, andi] at e
  simp only [IntOp.andi_eq_one] at e
  obtain ⟨⟨⟨h63, h67⟩, h15⟩, h16⟩ := e
  exact ⟨h63, h67, allReal_of_all_lt_inf a15 _ _ _ _ h15, allReal_of_all_lt_inf a16 _ _ _ _ h16⟩

/-- The third stretch: the bit handed in was 1, the comparison handed in was 1 at every entry, and the five arrays
    from here on are real. -/
theorem part3_one (a12 : FVec Ideal S512x512 .f32) (a13 : FVec Ideal S512 .f32) (a14 a15 : FVec Ideal S512x512 .f32)
    (a16 : FVec Ideal S512 .f32) (v48 : IVec S_ 1) (v49 v50 : FVec Ideal S512 .f32)
    (e : fn_part3 (F := Ideal) a12 a13 a14 a15 a16 v48 v49 v50 ix0 = 1#1) :
    v48 ix0 = 1#1 ∧ (∀ i, cmpf .olt v49 v50 i = 1#1)
      ∧ AllReal (a12 : S512x512.Idx → EReal) ∧ AllReal (a13 : S512.Idx → EReal) ∧ AllReal (a14 : S512x512.Idx → EReal)
      ∧ AllReal (a15 : S512x512.Idx → EReal) ∧ AllReal (a16 : S512.Idx → EReal) := by
  dsimp only [fn_part3] at e
  obtain ⟨h63, h67, h15, h16⟩ := part4_one _ _ _ _ e
  dsimp only [andi] at h63
  simp only [IntOp.andi_eq_one] at h63
  obtain ⟨⟨⟨h48, h11⟩, h12⟩, h13⟩ := h63
  exact ⟨h48, Host.reduce_andi_all _ _ _ _ _ h11, allReal_of_all_lt_inf a12 _ _ _ _ h12,
    allReal_of_all_lt_inf a13 _ _ _ _ h13, allReal_of_all_lt_inf a14 _ _ _ _ h67, h15, h16⟩

/-- The second stretch: the bit handed in was 1 and the nine arrays from here on are real. -/
theorem part2_one (a8 : FVec Ideal S512 .f32) (a9 a10 : FVec Ideal S512x512 .f32) (a11 : FVec Ideal S512 .f32)
    (a12 : FVec Ideal S512x512 .f32) (a13 : FVec Ideal S512 .f32) (a14 a15 : FVec Ideal S512x512 .f32)
    (a16 : FVec Ideal S512 .f32) (v33 : IVec S_ 1)
    (e : fn_part2 (F := Ideal) a8 a9 a10 a11 a12 a13 a14 a15 a16 v33 ix0 = 1#1) :
    v33 ix0 = 1#1
      ∧ AllReal (a8 : S512.Idx → EReal) ∧ AllReal (a9 : S512x512.Idx → EReal) ∧ AllReal (a10 : S512x512.Idx → EReal)
      ∧ AllReal (a11 : S512.Idx → EReal)
      ∧ AllReal (a12 : S512x512.Idx → EReal) ∧ AllReal (a13 : S512.Idx → EReal) ∧ AllReal (a14 : S512x512.Idx → EReal)
      ∧ AllReal (a15 : S512x512.Idx → EReal) ∧ AllReal (a16 : S512.Idx → EReal) := by
  dsimp only [fn_part2] at e
  obtain ⟨h48, h11, h12, h13, h14, h15, h16⟩ := part3_one _ _ _ _ _ _ _ _ e
  dsimp only [andi] at h48
  simp only [IntOp.andi_eq_one] at h48
  obtain ⟨⟨⟨h33, h8⟩, h9⟩, h10⟩ := h48
  exact ⟨h33, allReal_of_all_lt_inf a8 _ _ _ _ h8, allReal_of_all_lt_inf a9 _ _ _ _ h9,
    allReal_of_all_lt_inf a10 _ _ _ _ h10, allReal_of_cmp a11 _ h11, h12, h13, h14, h15, h16⟩

/-- The first stretch: the bit handed in was 1, the comparison handed in was 1 at every entry, and the twelve arrays
    from here on are real. -/
theorem part1_one (a5 : FVec Ideal S512x512 .f32) (a6 : FVec Ideal S512 .f32) (a7 : FVec Ideal S512x512 .f32)
    (a8 : FVec Ideal S512 .f32) (a9 a10 : FVec Ideal S512x512 .f32) (a11 : FVec Ideal S512 .f32)
    (a12 : FVec Ideal S512x512 .f32) (a13 : FVec Ideal S512 .f32) (a14 a15 : FVec Ideal S512x512 .f32)
    (a16 : FVec Ideal S512 .f32) (v13 : IVec S_ 1) (v16 : IVec S512x512 1)
    (e : fn_part1 (F := Ideal) a5 a6 a7 a8 a9 a10 a11 a12 a13 a14 a15 a16 v13 v16 ix0 = 1#1) :
    v13 ix0 = 1#1 ∧ (∀ i, v16 i = 1#1)
      ∧ AllReal (a5 : S512x512.Idx → EReal) ∧ AllReal (a6 : S512.Idx → EReal) ∧ AllReal (a7 : S512x512.Idx → EReal)
      ∧ AllReal (a8 : S512.Idx → EReal) ∧ AllReal (a9 : S512x512.Idx → EReal) ∧ AllReal (a10 : S512x512.Idx → EReal)
      ∧ AllReal (a11 : S512.Idx → EReal)
      ∧ AllReal (a12 : S512x512.Idx → EReal) ∧ AllReal (a13 : S512.Idx → EReal) ∧ AllReal (a14 : S512x512.Idx → EReal)
      ∧ AllReal (a15 : S512x512.Idx → EReal) ∧ AllReal (a16 : S512.Idx → EReal) := by
  dsimp only [fn_part1] at e
  obtain ⟨h33, h8, h9, h10, h11, h12, h13, h14, h15, h16⟩ := part2_one _ _ _ _ _ _ _ _ _ _ e
  dsimp only [andi] at h33
  simp only [IntOp.andi_eq_one] at h33
  obtain ⟨⟨⟨⟨h13', h4⟩, h5⟩, h6⟩, h7⟩ := h33
  exact ⟨h13', Host.reduce_andi_all _ _ _ _ _ h4, allReal_of_all_lt_inf a5 _ _ _ _ h5,
    allReal_of_all_lt_inf a6 _ _ _ _ h6, allReal_of_all_lt_inf a7 _ _ _ _ h7,
    h8, h9, h10, h11, h12, h13, h14, h15, h16⟩

/-- The whole predicate: if it is 1, every entry of each of the sixteen float arrays is a real number (the integer
    array is not looked at). -/
theorem fn_one (a0 : FVec Ideal S20000x512 .f32) (a1 : IVec S2x160000 32) (a2 : FVec Ideal S512x512 .f32)
    (a3 : FVec Ideal S512 .f32) (a4 a5 : FVec Ideal S512x512 .f32) (a6 : FVec Ideal S512 .f32)
    (a7 : FVec Ideal S512x512 .f32) (a8 : FVec Ideal S512 .f32) (a9 a10 : FVec Ideal S512x512 .f32)
    (a11 : FVec Ideal S512 .f32) (a12 : FVec Ideal S512x512 .f32) (a13 : FVec Ideal S512 .f32)
    (a14 a15 : FVec Ideal S512x512 .f32) (a16 : FVec Ideal S512 .f32)
    (e : fn (F := Ideal) a0 a1 a2 a3 a4 a5 a6 a7 a8 a9 a10 a11 a12 a13 a14 a15 a16 ix0 = 1#1) :
    AllReal (a0 : S20000x512.Idx → EReal) ∧ AllReal (a2 : S512x512.Idx → EReal) ∧ AllReal (a3 : S512.Idx → EReal)
      ∧ AllReal (a4 : S512x512.Idx → EReal)
      ∧ AllReal (a5 : S512x512.Idx → EReal) ∧ AllReal (a6 : S512.Idx → EReal) ∧ AllReal (a7 : S512x512.Idx → EReal)
      ∧ AllReal (a8 : S512.Idx → EReal) ∧ AllReal (a9 : S512x512.Idx → EReal) ∧ AllReal (a10 : S512x512.Idx → EReal)
      ∧ AllReal (a11 : S512.Idx → EReal)
      ∧ AllReal (a12 : S512x512.Idx → EReal) ∧ AllReal (a13 : S512.Idx → EReal) ∧ AllReal (a14 : S512x512.Idx → EReal)
      ∧ AllReal (a15 : S512x512.Idx → EReal) ∧ AllReal (a16 : S512.Idx → EReal) := by
  dsimp only [fn] at e
  obtain ⟨h13', h4, h5, h6, h7, h8, h9, h10, h11, h12, h13, h14, h15, h16⟩ :=
    part1_one _ _ _ _ _ _ _ _ _ _ _ _ _ _ e
  dsimp only [andi] at h13'
  simp only [IntOp.andi_eq_one] at h13'
  obtain ⟨⟨h0, h2⟩, h3⟩ := h13'
  exact ⟨allReal_of_all_lt_inf a0 _ _ _ _ h0, allReal_of_all_lt_inf a2 _ _ _ _ h2,
    allReal_of_all_lt_inf a3 _ _ _ _ h3, allReal_of_cmp a4 _ h4,
    h5, h6, h7, h8, h9, h10, h11, h12, h13, h14, h15, h16⟩

end Parts

/-- Under the precondition, on every device, every entry of each of the sixteen float argument arrays is a real
    number. -/
theorem inputs_real (m : (ℓ : Loc nD τ sig) → Buf (Elt Ideal) ℓ) (h : Cert.Pre_KernelIdeal m) (c : Dev nD) :
    AllReal (m ((c.tc : Thread nD τ).loc main_arg0) : S20000x512.Idx → EReal)
    ∧ AllReal (m ((c.tc : Thread nD τ).loc main_arg2) : S512x512.Idx → EReal)
    ∧ AllReal (m ((c.tc : Thread nD τ).loc main_arg3) : S512.Idx → EReal)
    ∧ AllReal (m ((c.tc : Thread nD τ).loc main_arg4) : S512x512.Idx → EReal)
    ∧ AllReal (m ((c.tc : Thread nD τ).loc main_arg5) : S512x512.Idx → EReal)
    ∧ AllReal (m ((c.tc : Thread nD τ).loc main_arg6) : S512.Idx → EReal)
    ∧ AllReal (m ((c.tc : Thread nD τ).loc main_arg7) : S512x512.Idx → EReal)
    ∧ AllReal (m ((c.tc : Thread nD τ).loc main_arg8) : S512.Idx → EReal)
    ∧ AllReal (m ((c.tc : Thread nD τ).loc main_arg9) : S512x512.Idx → EReal)
    ∧ AllReal (m ((c.tc : Thread nD τ).loc main_arg10) : S512x512.Idx → EReal)
    ∧ AllReal (m ((c.tc : Thread nD τ).loc main_arg11) : S512.Idx → EReal)
    ∧ AllReal (m ((c.tc : Thread nD τ).loc main_arg12) : S512x512.Idx → EReal)
    ∧ AllReal (m ((c.tc : Thread nD τ).loc main_arg13) : S512.Idx → EReal)
    ∧ AllReal (m ((c.tc : Thread nD τ).loc main_arg14) : S512x512.Idx → EReal)
    ∧ AllReal (m ((c.tc : Thread nD τ).loc main_arg15) : S512x512.Idx → EReal)
    ∧ AllReal (m ((c.tc : Thread nD τ).loc main_arg16) : S512.Idx → EReal) :=
  fn_one _ _ _ _ _ _ _ _ _ _ _ _ _ _ _ _ _ (congrFun (h c) ValueIdx.ix0)

end Cert.KernelIdeal.Val

end
-- ==== Proof.LibRowReads.lean ====
/-
  General lemmas for reading a matrix-shaped value row by row, at an index written by coordinates.

  • `sum_fin_split`: a finite sum over `c = a + b` positions is the sum over the first `a` plus the sum over the last `b`
    (any commutative monoid).
  • `concat_cols_left`, `concat_cols_right`: two matrices `[n, a]` and `[n, b]` joined side by side into `[n, c]`, read at
    `(r, k)` with `k < a`, give the first at `(r, k)`; read at `(r, a + k)`, the second at `(r, k)`.
  • `hostReduce_min_row`: the host's reduction with a minimum body along the rows of an `[a, b]` matrix is, at row `r`,
    the fold of `min`, started at the initial value, over the row's entries. It rests only on `min` being commutative
    and associative, so the order in which the reduction walks the row does not matter; no finiteness is asked.
  • `stack3_row0`, `stack3_row1`, `stack3_row2`: three one-row matrices `[1, n]` stacked into `[3, n]`, read in row 0, 1,
    2, give the first, second, third piece at the same column.

  Generic in every extent and in the element type; nothing here mentions a program.
-/
import Idealize.ShloMosaic.Lib.Pipeline.Value
import Idealize.ShloMosaic.Lib.ValueIdx
import Idealize.ShloMosaic.PureOps.Ideal.Laws
import Idealize.ShloMosaic.PureOps.Reduce
import Mathlib.Algebra.BigOperators.Fin

noncomputable section

namespace Cert.RowReads

open Idealize.ShloMosaic Idealize.ShloMosaic.ValueIdx

/-- A sum over `Fin c` with `c = a + b` is the sum over the first `a` positions plus the sum over the last `b`. -/
theorem sum_fin_split {M : Type*} [AddCommMonoid M] {a b c : ℕ} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

section Concat
variable {α : Type}

/-- Two matrices joined side by side, read in a column of the first: the first matrix there. -/
theorem concat_cols_left {n a b c : ℕ} (hc : a + b = c) (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin a) :
    concatenate ⟨2, ![n, c]⟩ 1 [⟨⟨2, ![n, a]⟩, x⟩, ⟨⟨2, ![n, b]⟩, y⟩] h (ix2 r (⟨k.val, by omega⟩ : Fin c)) = x (ix2 r k) :=
  concatenate_pair_apply_left 1 x y h _ rfl (ix2 r k) fun d => match d with
    | ⟨0, _⟩ => rfl
    | ⟨1, _⟩ => rfl

/-- Two matrices joined side by side, read in a column past the first: the second matrix, the first's width less. -/
theorem concat_cols_right {n a b c : ℕ} (hc : a + b = c) (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin b) :
    concatenate ⟨2, ![n, c]⟩ 1 [⟨⟨2, ![n, a]⟩, x⟩, ⟨⟨2, ![n, b]⟩, y⟩] h (ix2 r (⟨a + k.val, by omega⟩ : Fin c)) = y (ix2 r k) :=
  concatenate_pair_apply_right 1 x y h _ rfl rfl (ix2 r k)
    (fun d hd => match d, hd with
      | ⟨0, _⟩, _ => rfl
      | ⟨1, _⟩, hd => absurd rfl hd)
    (Nat.add_comm _ _)

end Concat

/-- The host's reduction with a minimum body along the rows of a matrix, read at row `r`: the least of the initial value
    and the row's entries. -/
theorem hostReduce_min_row {φ : FTy} {a b : ℕ} {u : Shape} (x : FVec Ideal ⟨2, ![a, b]⟩ φ) (init : FVec Ideal u φ)
    (h' : (⟨2, ![a, b]⟩ : Shape).ReducesTo [1] ⟨1, ![a]⟩) (hu : 0 < u.numel) (r : Fin a) :
    Host.reduce FloatOps.minimumf x init h' hu (ix1 r)
      = (Finset.univ : Finset (Fin b)).fold min (init (Shape.Idx.first hu)) (fun k => x (ix2 r k)) := by
  have h : (⟨2, ![a, b]⟩ : Shape).Reduces [1] ⟨1, ![a]⟩ := ⟨h'.1, Nat.one_pos, h'.2⟩
  rw [Host.reduce_eq_fold_single FloatOps.minimumf x init h' h hu (ix1 r)]
  refine Finset.fold_congr fun k _ => congrArg x ?_
  funext d
  apply Fin.ext
  match d with
  | ⟨0, _⟩ => rfl
  | ⟨1, _⟩ => rfl

section Stack
variable {α : Type}

/-- Three one-row matrices stacked into three rows, read in the first row: the first piece. -/
theorem stack3_row0 {n : ℕ} (y0 y1 y2 : (⟨2, ![1, n]⟩ : Shape).Idx → α)
    (h : Shape.Concatenates [(⟨2, ![1, n]⟩ : Shape), ⟨2, ![1, n]⟩, ⟨2, ![1, n]⟩] ⟨2, ![3, n]⟩ 0) (t : Fin 3) (ht : t.val = 0)
    (c : Fin n) :
    concatenate ⟨2, ![3, n]⟩ 0 [⟨⟨2, ![1, n]⟩, y0⟩, ⟨⟨2, ![1, n]⟩, y1⟩, ⟨⟨2, ![1, n]⟩, y2⟩] h (ix2 t c)
      = y0 (ix2 (0 : Fin 1) c) := by
  refine concatenate_apply_piece 0 [⟨⟨2, ![1, n]⟩, y0⟩, ⟨⟨2, ![1, n]⟩, y1⟩, ⟨⟨2, ![1, n]⟩, y2⟩] h (ix2 t c) 0
    (show 0 < 3 by omega) ⟨2, ![1, n]⟩ y0 rfl rfl 0 rfl (ix2 (0 : Fin 1) c) ?_ ?_
  · intro b hb
    match b, hb with
    | ⟨0, _⟩, hb => exact absurd rfl hb
    | ⟨1, _⟩, _ => rfl
  · show 0 + 0 = t.val
    omega

/-- … read in the second row: the second piece. -/
theorem stack3_row1 {n : ℕ} (y0 y1 y2 : (⟨2, ![1, n]⟩ : Shape).Idx → α)
    (h : Shape.Concatenates [(⟨2, ![1, n]⟩ : Shape), ⟨2, ![1, n]⟩, ⟨2, ![1, n]⟩] ⟨2, ![3, n]⟩ 0) (t : Fin 3) (ht : t.val = 1)
    (c : Fin n) :
    concatenate ⟨2, ![3, n]⟩ 0 [⟨⟨2, ![1, n]⟩, y0⟩, ⟨⟨2, ![1, n]⟩, y1⟩, ⟨⟨2, ![1, n]⟩, y2⟩] h (ix2 t c)
      = y1 (ix2 (0 : Fin 1) c) := by
  refine concatenate_apply_piece 0 [⟨⟨2, ![1, n]⟩, y0⟩, ⟨⟨2, ![1, n]⟩, y1⟩, ⟨⟨2, ![1, n]⟩, y2⟩] h (ix2 t c) 1
    (show 1 < 3 by omega) ⟨2, ![1, n]⟩ y1 rfl rfl 1 rfl (ix2 (0 : Fin 1) c) ?_ ?_
  · intro b hb
    match b, hb with
    | ⟨0, _⟩, hb => exact absurd rfl hb
    | ⟨1, _⟩, _ => rfl
  · show 1 + 0 = t.val
    omega

/-- … read in the third row: the third piece. -/
theorem stack3_row2 {n : ℕ} (y0 y1 y2 : (⟨2, ![1, n]⟩ : Shape).Idx → α)
    (h : Shape.Concatenates [(⟨2, ![1, n]⟩ : Shape), ⟨2, ![1, n]⟩, ⟨2, ![1, n]⟩] ⟨2, ![3, n]⟩ 0) (t : Fin 3) (ht : t.val = 2)
    (c : Fin n) :
    concatenate ⟨2, ![3, n]⟩ 0 [⟨⟨2, ![1, n]⟩, y0⟩, ⟨⟨2, ![1, n]⟩, y1⟩, ⟨⟨2, ![1, n]⟩, y2⟩] h (ix2 t c)
      = y2 (ix2 (0 : Fin 1) c) := by
  refine concatenate_apply_piece 0 [⟨⟨2, ![1, n]⟩, y0⟩, ⟨⟨2, ![1, n]⟩, y1⟩, ⟨⟨2, ![1, n]⟩, y2⟩] h (ix2 t c) 2
    (show 2 < 3 by omega) ⟨2, ![1, n]⟩ y2 rfl rfl 2 rfl (ix2 (0 : Fin 1) c) ?_ ?_
  · intro b hb
    match b, hb with
    | ⟨0, _⟩, hb => exact absurd rfl hb
    | ⟨1, _⟩, _ => rfl
  · show 2 + 0 = t.val
    omega

end Stack

end Cert.RowReads

end
-- ==== Proof.Bridge.lean ====
/-
  One fused layer is one plain layer, and a layer of real numbers is real.

  Entry (p, q) of the fused layer contracts row p of "agg, x" (1024 features) with column q of the transposed
  "w_rel, w_root + w_lin" and adds b_rel[q] + b_lin[q]. Reading the two side-by-side arrays left and right of their
  seam, the contraction over 1024 positions is the contraction of agg's row with w_rel's row q plus the contraction of
  x's row with the sum of the rows q of w_root and w_lin; the layer law (real x, w_root, w_lin) turns that into the
  plain layer's three contractions and two biases. The aggregation only re-indexes its input and adds finitely many of
  its entries onto zeros, so it keeps real entries real; so do the contractions, the biases and the maximum against
  zero.
-/
import proofs.«110117_j60559038874107_1_alg».proof.Proof.Spec
import proofs.«110117_j60559038874107_1_alg».proof.Proof.LibRowReads
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.KernelIdeal Cert.KernelIdeal.Gen Cert.Spec Cert.LayerLaw Cert.RowReads

section Reads
variable (x : (⟨S20000x512, .f32⟩ : BufTy).Contents (Elt Ideal)) (s t : (⟨S160000, .i32⟩ : BufTy).Contents (Elt Ideal))
  (wrel wroot wlin : (⟨S512x512, .f32⟩ : BufTy).Contents (Elt Ideal)) (brel blin : (⟨S512, .f32⟩ : BufTy).Contents (Elt Ideal))

/-- Left of the seam the feature row holds the aggregated neighbours. -/
theorem feat_left (p : Fin 20000) (k : Fin 512) :
    feat x s t (ix2 p (⟨k.val, by omega⟩ : Fin 1024)) = agg x s t (ix2 p k) := by
  unfold feat
  rw [truncf_apply]
  exact concat_cols_left (by norm_num : 512 + 512 = 1024) (agg x s t) x concatenates_S20000x512_S20000x512_S20000x1024_d1 p k

/-- Right of the seam it holds the node's own features. -/
theorem feat_right (p : Fin 20000) (k : Fin 512) :
    feat x s t (ix2 p (⟨512 + k.val, by omega⟩ : Fin 1024)) = x (ix2 p k) := by
  unfold feat
  rw [truncf_apply]
  exact concat_cols_right (by norm_num : 512 + 512 = 1024) (agg x s t) x concatenates_S20000x512_S20000x512_S20000x1024_d1 p k

/-- The transposed weight at (k, q), k left of the seam: w_rel at (q, k). -/
theorem wcat_left (k : Fin 512) (q : Fin 512) :
    wcat wrel wroot wlin (ix2 (⟨k.val, by omega⟩ : Fin 1024) q) = wrel (ix2 q k) := by
  unfold wcat
  rw [truncf_apply, transpose_apply [1, 0] _ transposes_S512x1024_S1024x512_1_0 (ix2 (⟨k.val, by omega⟩ : Fin 1024) q)
    (ix2 q (⟨k.val, by omega⟩ : Fin 1024)) (fun b => match b with | ⟨0, _⟩ => rfl | ⟨1, _⟩ => rfl)]
  exact concat_cols_left (by norm_num : 512 + 512 = 1024) wrel (addf (F := Ideal) (φ := .f32) wroot wlin)
    concatenates_S512x512_S512x512_S512x1024_d1 q k

/-- The transposed weight at (512 + k, q): w_root + w_lin at (q, k). -/
theorem wcat_right (k : Fin 512) (q : Fin 512) :
    wcat wrel wroot wlin (ix2 (⟨512 + k.val, by omega⟩ : Fin 1024) q) = wroot (ix2 q k) + wlin (ix2 q k) := by
  unfold wcat
  rw [truncf_apply, transpose_apply [1, 0] _ transposes_S512x1024_S1024x512_1_0 (ix2 (⟨512 + k.val, by omega⟩ : Fin 1024) q)
    (ix2 q (⟨512 + k.val, by omega⟩ : Fin 1024)) (fun b => match b with | ⟨0, _⟩ => rfl | ⟨1, _⟩ => rfl)]
  exact concat_cols_right (by norm_num : 512 + 512 = 1024) wrel (addf (F := Ideal) (φ := .f32) wroot wlin)
    concatenates_S512x512_S512x512_S512x1024_d1 q k

/-- The bias row at q: the two biases added. -/
theorem brow_apply (q : Fin 512) : brow brel blin (ix2 (0 : Fin 1) q) = brel (ix1 q) + blin (ix1 q) := by
  unfold brow
  rw [shapeCast_addUnit_apply ![512] (addf (F := Ideal) (φ := .f32) brel blin) shapeCasts_S512_S1x512 (ix2 (0 : Fin 1) q)]
  have e : (fun a : Fin 1 => (ix2 (0 : Fin 1) q) a.succ) = ix1 q := funext fun a => match a with | ⟨0, _⟩ => rfl
  rw [e]
  rfl

end Reads

/-- THE LAYER: on real node features and real w_root, w_lin the kernel's fused layer is the reference's plain layer. -/
theorem fused_eq_plain (relu : Bool) (x : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal))
    (wroot wlin : (⟨S512x512, .f32⟩ : BufTy).Contents (Elt Ideal)) (blin : (⟨S512, .f32⟩ : BufTy).Contents (Elt Ideal))
    (hx : AllReal x) (hroot : AllReal wroot) (hlin : AllReal wlin) :
    fusedLayer relu x s t wrel brel wroot wlin blin = plainLayer relu x s t wrel brel wroot wlin blin := by
  funext i
  obtain ⟨p, q, rfl⟩ : ∃ (p : Fin 20000) (q : Fin 512), i = ix2 p q := ⟨i 0, i 1, eq_ix2 i⟩
  rw [plainLayer_apply]
  unfold fusedLayer
  rw [mm_apply]
  refine congrArg (Cert.Spec.post relu) ?_
  rw [sum_fin_split (by norm_num : 512 + 512 = 1024)]
  simp only [feat_left, feat_right, wcat_left, wcat_right, brow_apply]
  exact fused_eq_unfused (fun k => agg x s t (ix2 p k)) (fun k => x (ix2 p k)) (fun k => wrel (ix2 q k))
    (fun k => wroot (ix2 q k)) (fun k => wlin (ix2 q k)) (brel (ix1 q)) (blin (ix1 q))
    (hx.comp _) (hroot.comp _) (hlin.comp _)

/-- The aggregation of real features is real: zero plus finitely many entries of the input. -/
theorem agg_real (x : (⟨S20000x512, .f32⟩ : BufTy).Contents (Elt Ideal)) (s t : (⟨S160000, .i32⟩ : BufTy).Contents (Elt Ideal))
    (hx : AllReal x) : AllReal (agg x s t) := by
  intro i
  show ∃ r : ℝ, Ideal.hostScatterAdd scatter_S20000x512_S160000x1_S160000x512_1_0_0_1
    (broadcastInDim S20000x512 ![] bcast_S_S20000x512 (constant (F := Ideal) S_ .f32 0x00000000#32)) (dstCol t)
    (Host.gather gather_S20000x512_S160000x1_S160000x512_1_0_n_n_0_1_1512 x (srcCol s)) i = r
  unfold Ideal.hostScatterAdd
  refine real_add ⟨0, ?_⟩ (real_sum _ _ fun j _ => ?_)
  · show Ideal.ofBits .f32 0x00000000#32 = ((0 : ℝ) : EReal)
    rw [Ideal.ofBits_zero_f32]; rfl
  · unfold Host.gather
    exact hx _

/-- The maximum against zero, or nothing, keeps a real number real. -/
theorem post_real (relu : Bool) {v : EReal} (hv : ∃ r : ℝ, v = r) : ∃ r : ℝ, Cert.Spec.post relu v = r := by
  unfold Cert.Spec.post
  cases relu
  · simpa using hv
  · simp only [if_true, zeroWord_eq]; exact real_max_zero hv

/-- A plain layer of real features, weights and biases is real. -/
theorem plainLayer_real (relu : Bool) (x : (⟨S20000x512, .f32⟩ : BufTy).Contents (Elt Ideal)) (s t : (⟨S160000, .i32⟩ : BufTy).Contents (Elt Ideal))
    (wrel : (⟨S512x512, .f32⟩ : BufTy).Contents (Elt Ideal)) (brel : (⟨S512, .f32⟩ : BufTy).Contents (Elt Ideal))
    (wroot wlin : (⟨S512x512, .f32⟩ : BufTy).Contents (Elt Ideal)) (blin : (⟨S512, .f32⟩ : BufTy).Contents (Elt Ideal))
    (hx : AllReal x) (hrel : AllReal wrel) (hbrel : AllReal brel) (hroot : AllReal wroot) (hlin : AllReal wlin) (hblin : AllReal blin) :
    AllReal (plainLayer relu x s t wrel brel wroot wlin blin) := by
  intro i
  obtain ⟨p, q, rfl⟩ : ∃ (p : Fin 20000) (q : Fin 512), i = ix2 p q := ⟨i 0, i 1, eq_ix2 i⟩
  rw [plainLayer_apply]
  exact post_real relu (unfused_real (fun k => agg x s t (ix2 p k)) (fun k => x (ix2 p k)) (fun k => wrel (ix2 q k))
    (fun k => wroot (ix2 q k)) (fun k => wlin (ix2 q k)) (brel (ix1 q)) (blin (ix1 q))
    ((agg_real x s t hx).comp _) (hx.comp _) (hrel.comp _) (hroot.comp _) (hlin.comp _) (hbrel _) (hblin _))

section Net
variable (x : (⟨S20000x512, .f32⟩ : BufTy).Contents (Elt Ideal)) (e : (⟨S2x160000, .i32⟩ : BufTy).Contents (Elt Ideal))
  (wrel1 : (⟨S512x512, .f32⟩ : BufTy).Contents (Elt Ideal)) (brel1 : (⟨S512, .f32⟩ : BufTy).Contents (Elt Ideal))
  (wroot1 wlin1 : (⟨S512x512, .f32⟩ : BufTy).Contents (Elt Ideal)) (blin1 : (⟨S512, .f32⟩ : BufTy).Contents (Elt Ideal))
  (wrel2 : (⟨S512x512, .f32⟩ : BufTy).Contents (Elt Ideal)) (brel2 : (⟨S512, .f32⟩ : BufTy).Contents (Elt Ideal))
  (wroot2 wlin2 : (⟨S512x512, .f32⟩ : BufTy).Contents (Elt Ideal)) (blin2 : (⟨S512, .f32⟩ : BufTy).Contents (Elt Ideal))
  (wrel3 : (⟨S512x512, .f32⟩ : BufTy).Contents (Elt Ideal)) (brel3 : (⟨S512, .f32⟩ : BufTy).Contents (Elt Ideal))
  (wroot3 wlin3 : (⟨S512x512, .f32⟩ : BufTy).Contents (Elt Ideal)) (blin3 : (⟨S512, .f32⟩ : BufTy).Contents (Elt Ideal))

/-- THREE LAYERS: on real inputs the kernel program's result is the reference's. Each layer's output is real, so
    the next layer's law applies. -/
theorem fusedNet_eq_plainNet (hx : AllReal x)
    (h2 : AllReal wrel1) (h3 : AllReal brel1) (h4 : AllReal wroot1) (h5 : AllReal wlin1) (h6 : AllReal blin1)
    (h7 : AllReal wrel2) (h8 : AllReal brel2) (h9 : AllReal wroot2) (h10 : AllReal wlin2) (h11 : AllReal blin2)
    (h12 : AllReal wrel3) (h13 : AllReal brel3) (h14 : AllReal wroot3) (h15 : AllReal wlin3) (h16 : AllReal blin3) :
    fusedNet x e wrel1 brel1 wroot1 wlin1 blin1 wrel2 brel2 wroot2 wlin2 blin2 wrel3 brel3 wroot3 wlin3 blin3
      = plainNet x e wrel1 brel1 wroot1 wlin1 blin1 wrel2 brel2 wroot2 wlin2 blin2 wrel3 brel3 wroot3 wlin3 blin3 := by
  unfold fusedNet plainNet
  have r1 := plainLayer_real true x (srcRow e) (dstRow e) wrel1 brel1 wroot1 wlin1 blin1 hx h2 h3 h4 h5 h6
  have r2 := plainLayer_real true _ (srcRow e) (dstRow e) wrel2 brel2 wroot2 wlin2 blin2 r1 h7 h8 h9 h10 h11
  rw [fused_eq_plain true x (srcRow e) (dstRow e) wrel1 brel1 wroot1 wlin1 blin1 hx h4 h5,
    fused_eq_plain true _ (srcRow e) (dstRow e) wrel2 brel2 wroot2 wlin2 blin2 r1 h9 h10,
    fused_eq_plain false _ (srcRow e) (dstRow e) wrel3 brel3 wroot3 wlin3 blin3 r2 h14 h15]
end Net

end Cert.Bridge

end
-- ==== Proof.lean ====
/-
  Three stacked graph-convolution layers (GraphConv plus a linear skip), the first two followed by a maximum against
  zero: the kernel's program against the plain reference, as extended reals.

  Each layer aggregates the node features over the incoming edges (a row gather at the edges' sources, a row
  scatter-add at their targets; the same operations in both programs). The reference then forms
  (agg·w_relᵀ + b_rel) + x·w_rootᵀ + (x·w_linᵀ + b_lin). The kernel's program lays "agg, x" side by side, joins
  "w_rel, w_root + w_lin" the same way, adds the two biases, and one kernel region per layer computes a single
  contraction over the 1024 joined features plus the joined bias, tile of 2000 rows by tile. Over the reals the two are
  equal by regrouping sums and by x·(a + b) = x·a + x·b; on the extended reals that last law needs real numbers, which
  is where the precondition is used: all float inputs are finite, and sums, products and maxima against zero of real
  numbers are real, so every layer's input is real again.

  What is proved where: the region's ten row blocks assembled into its whole result array (Proof/Regions.lean); the host
  stretches read back and the result array after the last region as three fused layers of the arguments
  (Proof/KernelHost.lean, over the run of Proof/KernelRun.lean); the reference's result as three plain layers
  (Proof/RefValue.lean); finiteness of the inputs (Proof/Finite.lean); the layer law and the three-layer equality
  (Proof/LayerLaw.lean, Proof/Bridge.lean). The three frame claims are the generated frames (the reference's its
  generated run with the result dropped); nothing was rewritten by the idealization, so that claim is trivial.
-/
import proofs.«110117_j60559038874107_1_alg».proof.Defs
import proofs.«110117_j60559038874107_1_alg».proof.Proof.Gen.Kernel
import proofs.«110117_j60559038874107_1_alg».proof.Proof.Gen.Kernel.Skeleton
import proofs.«110117_j60559038874107_1_alg».proof.Proof.Gen.Kernel.Launch
import proofs.«110117_j60559038874107_1_alg».proof.Proof.Gen.Kernel.Points
import proofs.«110117_j60559038874107_1_alg».proof.Proof.Gen.Kernel.Frame
import proofs.«110117_j60559038874107_1_alg».proof.Proof.Gen.KernelIdeal
import proofs.«110117_j60559038874107_1_alg».proof.Proof.Gen.KernelIdeal.Skeleton
import proofs.«110117_j60559038874107_1_alg».proof.Proof.Gen.KernelIdeal.Launch
import proofs.«110117_j60559038874107_1_alg».proof.Proof.Gen.KernelIdeal.Points
import proofs.«110117_j60559038874107_1_alg».proof.Proof.Gen.KernelIdeal.Frame
import proofs.«110117_j60559038874107_1_alg».proof.Proof.Gen.ReferenceIdeal
import proofs.«110117_j60559038874107_1_alg».proof.Proof.Gen.ReferenceIdeal.Run
import proofs.«110117_j60559038874107_1_alg».proof.Proof.Gen.ReferenceIdeal.Read
import proofs.«110117_j60559038874107_1_alg».proof.Proof.Gen.Pre_finite_inputs
import proofs.«110117_j60559038874107_1_alg».proof.Proof.KernelRun
import proofs.«110117_j60559038874107_1_alg».proof.Proof.KernelHost
import proofs.«110117_j60559038874107_1_alg».proof.Proof.RefValue
import proofs.«110117_j60559038874107_1_alg».proof.Proof.Finite
import proofs.«110117_j60559038874107_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

-- seventeen rewrites of an argument array inside a term that names all seventeen several times
set_option maxHeartbeats 1000000 in
/-- Both programs end with the kernel program's three fused layers of the arguments in their result arrays: the
    kernel's by its run read back, the reference's because its three plain layers are the fused ones on real inputs. -/
theorem algebraic : Cert.algebraic_KernelIdeal_ReferenceIdeal := by
  intro m ρ m' ρ' hpre hagree
  refine ⟨fun c => Cert.Spec.fusedNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Val.W6_out m ρ c), (h c).2⟩)
      (Cert.KernelIdeal.Val.run_W6 (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v77_eq, Cert.ReferenceIdeal.RefValue.result_eq]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    obtain ⟨r0, r2, r3, r4, r5, r6, r7, r8, r9, r10, r11, r12, r13, r14, r15, r16⟩ := Cert.KernelIdeal.Val.inputs_real m hpre c
    refine (Cert.Bridge.fusedNet_eq_plainNet _ _ _ _ _ _ _ _ _ _ _ _ _ _ _ _ _ ?_ ?_ ?_ ?_ ?_ ?_ ?_ ?_ ?_ ?_ ?_ ?_ ?_ ?_ ?_ ?_).symm
    exacts [r0, r2, r3, r4, r5, r6, r7, r8, r9, r10, r11, r12, r13, r14, r15, r16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
